-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S4096x1 : Shape := ⟨2, ![4096, 1]⟩
abbrev S128x32000 : Shape := ⟨2, ![128, 32000]⟩
abbrev S128x1 : Shape := ⟨2, ![128, 1]⟩
abbrev S128x1280 : Shape := ⟨2, ![128, 1280]⟩
abbrev S128 : Shape := ⟨1, ![128]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c25_i32 : BitVec 32 := 25#32
  let v5 : BitVec 32 := Scalar.addi c0_i32 c25_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1280_i32 : BitVec 32 := 1280#32
  let v11 : BitVec 32 := Scalar.muli arg4 c1280_i32
  v11
def k0_off1 (k0_t1 : Fin k0_t1_loop.trips) : Fin 2 → Nat :=
  let c0_6 : Index := 0#32
  let c0_i32 : BitVec 32 := 0#32
  let c1_i32 : BitVec 32 := 1#32
  let arg4 : BitVec 32 := Scf.iv c0_i32 c1_i32 k0_t1
  let c1280_i32 : BitVec 32 := 1280#32
  let v11 : BitVec 32 := Scalar.muli arg4 c1280_i32
  let v12 : BitVec 32 := v11
  let v13 : Index := Scalar.indexCast v12
  ![0, v13.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S128x1280 : 0 < S128x1280.numel
  reduces_S128x1280_S128 : S128x1280.Reduces [1] S128
  shapeCasts_S128_S128x1 : S128.ShapeCasts S128x1
  broadcasts_S128x1_S128x1280 : S128x1.Broadcasts S128x1280
  iota_S128x1280_d1_w32 : S128x1280.Iotas .tc 32 [1]
  reducesTo_S4096x1_S_d0_1 : S4096x1.ReducesTo [0, 1] S_
  h_S_ : 0 < S_.numel
  bcast_S_S4096 : S_.BroadcastsInDim S4096 (![] : Fin 0 → Fin S4096.rank)
  reducesTo_S4096_S_d0 : S4096.ReducesTo [0] S_
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1280.size a ≤ S128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S4096x32000.size a
  hwx0_0 : ∀ i : grid0.Coords, EltTy.bits .f32 = 32 ∨ (Rect.block (s := S4096x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S4096x1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x1, .i32⟩
  | .hbm, ⟨46, _⟩ => ⟨S4096x1, .i32⟩
  | .hbm, ⟨47, _⟩ => ⟨S_, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_cst : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_c : Ref sig .tc := ⟨.hbm, 47, rfl⟩
abbrev main_v8 : Ref sig .tc := ⟨.hbm, 48, rfl⟩
abbrev main_c_1 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_call3_v0 : Ref sig .tc := ⟨.hbm, 56, rfl⟩
abbrev main_call3_v1 : Ref sig .tc := ⟨.hbm, 57, rfl⟩
abbrev main_v13 : Ref sig .tc := ⟨.hbm, 58, rfl⟩
abbrev main_v14 : Ref sig .tc := ⟨.hbm, 59, rfl⟩
abbrev main_cst_4 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  shapeCasts_S4096_S4096x1 : S4096.ShapeCasts S4096x1
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def comparator_i32_d1 : BitVec 32 → BitVec 32 → BitVec 1 :=
  fun l r =>
    let v1 := IntOp.cmpi .slt l r
    v1

class Facts : Prop extends Facts₀ where

variable [Facts]
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.Spec.lean ====
/-
  The cross-entropy loss with its constant penalty, as one function of the logits and the label words over the
  extended reals: per row the maximum, the sum of the exponentials of the entries less the maximum, the entry
  the label picks (written as the sum over the columns whose number is the label word), the row's loss
  max + log (sum) - picked entry; then the mean of the rows' losses over the 4096 rows plus ten times the sum of
  4096 copies of 31999. Beside it the same three row quantities computed chunk by chunk, 25 chunks of 1280 columns,
  with the running maximum rescaling the running sum (the online log-sum-exp).
-/
import Idealize.ShloMosaic.PureOps.Ideal
import Idealize.ShloMosaic.PureOps.Ideal.Laws
import Idealize.ShloMosaic.Lib.ValueIdx
import proofs.«419617_j52664888984291_2_alg».proof.Proof.LibRealClosure

open scoped BigOperators

noncomputable section

namespace CrossEntropy

open Idealize.ShloMosaic RealClosure

/-- The maximum of a row, from -∞. -/
def rowMax {n : Nat} (f : Fin n → EReal) : EReal := (Finset.univ : Finset (Fin n)).fold max ⊥ f

/-- The sum over the row of exp (entry - the row's maximum). -/
def rowSumExp {n : Nat} (f : Fin n → EReal) : EReal := ∑ c : Fin n, Ideal.exp (f c - rowMax f)

/-- The entry the label word picks, as a masked sum: the entries of the columns whose number, as a 32-bit word, is the label. -/
def rowPick {n : Nat} (f : Fin n → EReal) (tg : BitVec 32) : EReal :=
  ∑ c : Fin n, if BitVec.ofNat 32 c.val = tg then f c else 0

/-- A label word that names one of the 32000 columns (read as a signed integer). -/
def InRange (tg : BitVec 32) : Prop := 0 ≤ tg.toInt ∧ tg.toInt < 32000

/-- One row's loss: log-sum-exp less the picked entry. -/
def rowLoss {n : Nat} (f : Fin n → EReal) (tg : BitVec 32) : EReal :=
  (rowMax f + Ideal.log (rowSumExp f)) - rowPick f tg

/-- The whole loss: the mean of the rows' losses plus ten times the sum of 4096 copies of 31999. -/
def loss (X : Fin 4096 → Fin 32000 → EReal) (tg : Fin 4096 → BitVec 32) : EReal :=
  Ideal.div (∑ r : Fin 4096, rowLoss (X r) (tg r)) ((4096 : ℝ) : EReal)
    + ((10 : ℝ) : EReal) * ∑ _r : Fin 4096, ((31999 : ℝ) : EReal)

/-! ## Chunk by chunk -/

/-- Column k of chunk j. -/
def colOf (j : Fin 25) (k : Fin 1280) : Fin 32000 := ⟨1280 * j.val + k.val, by have := j.isLt; have := k.isLt; omega⟩

/-- One chunk's update of the running (maximum, rescaled sum, picked entry): `g` the chunk's 1280 entries, `base` the
    number of its first column. -/
def chunkStep (g : Fin 1280 → EReal) (base : Nat) (tg : BitVec 32) (s : EReal × EReal × EReal) : EReal × EReal × EReal :=
  (max s.1 (rowMax g),
   Ideal.exp (s.1 - max s.1 (rowMax g)) * s.2.1 + ∑ k : Fin 1280, Ideal.exp (g k - max s.1 (rowMax g)),
   s.2.2 + ∑ k : Fin 1280, if BitVec.ofNat 32 (k.val + base) = tg then g k else 0)

/-- The running triple before chunk j, from (-∞, 0, 0). -/
def chunkRun (f : Fin 32000 → EReal) (tg : BitVec 32) : ℕ → EReal × EReal × EReal
  | 0 => (⊥, 0, 0)
  | j + 1 => if h : j < 25 then chunkStep (fun k => f (colOf ⟨j, h⟩ k)) (1280 * j) tg (chunkRun f tg j) else chunkRun f tg j

end CrossEntropy

end
-- ==== Proof.PreDecode.lean ====
/-
  What the precondition says of the inputs: every logit is a real number and every label word names a column.
-/
import proofs.«419617_j52664888984291_2_alg».proof.Pre_finite_inputs
import proofs.«419617_j52664888984291_2_alg».proof.Proof.Gen.Pre_finite_inputs
import proofs.«419617_j52664888984291_2_alg».proof.Proof.Spec
import Idealize.ShloMosaic.Lib.ReduceAll
import Idealize.ShloMosaic.Lib.StableHlo.Predicate

noncomputable section

namespace Cert.PreDecode

open Idealize.ShloMosaic Idealize.ShloMosaic.ValueIdx CrossEntropy RealClosure

/-- The scalar shape has one index. -/
instance : Subsingleton Cert.Pre_finite_inputs.S_.Idx := ⟨fun a b => funext fun d => d.elim0⟩

/-- The ordered "less than" of two extended reals answers 1 exactly when the first is below the second. -/
theorem cmp_olt_eq_one_iff {a b : EReal} : Ideal.cmp .olt a b = 1#1 ↔ a < b := by
  show BitVec.ofBool (decide (a < b)) = 1#1 ↔ a < b
  by_cases h : a < b <;> simp [h]

/-- An extended real whose absolute value max a (-a) lies below +∞ is neither infinity: at +∞ the maximum is +∞ through
    its first argument, at -∞ through its second. -/
theorem isReal_of_abs_lt_top {a : EReal} (h : max a (-a) < ⊤) : IsReal a := by
  refine isReal_of_ne ?_ ?_
  · rintro rfl
    simp at h
  · rintro rfl
    simp at h

/-- One entry of the precondition's test |a| < +∞, read at the extended reals. -/
theorem isReal_of_cmpf_abs {a : Ideal .f32}
    (h : FloatOps.cmpf .olt (FloatOps.hostAbsf a) (FloatOps.ofBits (F := Ideal) .f32 0x7F800000#32) = 1#1) : IsReal a := by
  have h' : max a (-a) < Ideal.ofBits .f32 0x7F800000#32 := cmp_olt_eq_one_iff.1 h
  rw [ofBits_pos_inf_f32] at h'
  exact isReal_of_abs_lt_top h'

theorem of_pre [Cert.Pre_finite_inputs.Facts] (x : FVec Ideal Cert.Pre_finite_inputs.S4096x32000 .f32) (tg : IVec Cert.Pre_finite_inputs.S4096 32)
    (h : Cert.Pre_finite_inputs.fn (F := Ideal) x tg = fun _ => 1#1) :
    (∀ i, IsReal (x i)) ∧ ∀ r : Fin 4096, InRange (tg (ix1 r)) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i => ?_, fun r => ⟨?_, ?_⟩⟩
  · exact isReal_of_cmpf_abs (Host.reduce_andi_all _ _ _ _ ix0 h1 i)
  · have e' : (0#32 : BitVec 32).toInt ≤ (tg (ix1 r)).toInt :=
      IntOp.cmpi_sge.1 (Host.reduce_andi_all _ _ _ _ ix0 h2 (ix1 r))
    have z : (0#32 : BitVec 32).toInt = 0 := by decide
    rw [z] at e'
    exact e'
  · have e' : (tg (ix1 r)).toInt < (32000#32 : BitVec 32).toInt :=
      IntOp.cmpi_slt.1 (Host.reduce_andi_all _ _ _ _ ix0 h3 (ix1 r))
    have z : (32000#32 : BitVec 32).toInt = 32000 := by decide
    rw [z] at e'
    exact e'

end Cert.PreDecode

end
-- ==== Proof.Payload.lean ====
/-
  The kernel body's arithmetic read at one row: one trip of the loop updates the running (maximum, rescaled sum,
  picked entry) of row p by the chunk's step, and the stored value is max + log (sum) - picked.
-/
import proofs.«419617_j52664888984291_2_alg».proof.Proof.Gen.KernelIdeal.Skeleton
import proofs.«419617_j52664888984291_2_alg».proof.Proof.Spec
import Idealize.ShloMosaic.Lib.Pipeline.Value

open scoped BigOperators

noncomputable section

namespace Cert.KernelIdeal.PayloadAt

open Idealize.ShloMosaic Idealize.ShloMosaic.ValueIdx Cert.KernelIdeal Cert.KernelIdeal.Gen CrossEntropy

/-! ## Layout operations at an index: a column of a matrix with one column -/

section Layout
variable {α : Type}

/-- An `[a]` vector cast to the one-column matrix `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A shape cast to the operand's own shape reads the operand. -/
theorem shapeCast_self_apply {s : Shape} (x : s.Idx → α) (h : s.ShapeCasts s) (j : s.Idx) : shapeCast s x h j = x j :=
  shapeCast_apply x h _ _ rfl

/-- A one-column matrix `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions, kept as a column, at row p -/

/-- The index the lane reduction inserts coordinate `q` into at row `p` is `(p, q)`. -/
theorem lift_ix1 (p : Fin 128) (q : Fin 1280) :
    reduces_S128x1280_S128.lift (ix1 p) q = ix2 p q := by
  funext d; match d with | ⟨0, _⟩ => rfl | ⟨1, _⟩ => rfl

/-- The lane sum of a `[128, 1280]` block, as a column, at row `p`: the sum of the row's 1280 entries. -/
theorem rowSum_apply (v : FVec Ideal S128x1280 .f32) (p : Fin 128) :
    shapeCast S128x1 (multiReduction (F := Ideal) .add [1] S128 v 0x00000000#32 reduces_S128x1280_S128 (.inl rfl) rfl)
        shapeCasts_S128_S128x1 (ix2 p 0)
      = ∑ q : Fin 1280, v (ix2 p q) := by
  rw [shapeCast_a_a1_apply]
  refine (Ideal.multiReduction_add_single _ _ _ _ _ _).trans ?_
  exact Finset.sum_congr rfl fun q _ => congrArg v (lift_ix1 p q)

/-- The lane maximum of a `[128, 1280]` block from -∞, as a column, at row `p`: the row's maximum. -/
theorem rowMax_apply (v : FVec Ideal S128x1280 .f32) (p : Fin 128) :
    shapeCast S128x1 (multiReduction (F := Ideal) .maximumf [1] S128 v 0xFF800000#32 reduces_S128x1280_S128 (.inl rfl) rfl)
        shapeCasts_S128_S128x1 (ix2 p 0)
      = rowMax (fun q : Fin 1280 => v (ix2 p q)) := by
  rw [shapeCast_a_a1_apply]
  refine (Ideal.multiReduction_maximumf_single _ _ _ _ _ _).trans ?_
  unfold rowMax
  show Finset.fold max (Ideal.ofBits .f32 0xFF800000#32) (fun q : Fin 1280 => v (reduces_S128x1280_S128.lift (ix1 p) q)) Finset.univ
      = Finset.fold max ⊥ (fun q : Fin 1280 => v (ix2 p q)) Finset.univ
  rw [RealClosure.ofBits_neg_inf_f32]
  simp only [lift_ix1]

/-! ## The initial values -/

theorem pay1_apply (j : S128x1.Idx) : (k0_pay1 (F := Ideal)) j = ⊥ := by
  unfold k0_pay1
  exact RealClosure.ofBits_neg_inf_f32
theorem pay2_apply (j : S128x1.Idx) : (k0_pay2 (F := Ideal)) j = 0 := by
  unfold k0_pay2
  exact Ideal.ofBits_zero_f32
theorem pay3_apply (j : S128x1.Idx) : (k0_pay3 (F := Ideal)) j = 0 := by
  unfold k0_pay3
  exact Ideal.ofBits_zero_f32

/-! ## One trip, component by component -/

/-- The new running maximum at row p. -/
theorem pay4_apply (arg5 : FVec Ideal S128x1 .f32) (v14 : Vec Ideal S128x1280 .f32) (p : Fin 128) :
    k0_pay4 arg5 v14 (ix2 p 0) = max (arg5 (ix2 p 0)) (rowMax (fun q : Fin 1280 => v14 (ix2 p q))) := by
  unfold k0_pay4
  dsimp only
  rw [maximumf_apply, rowMax_apply]

/-- The new rescaled sum at row p. -/
theorem pay5_apply (arg5 arg6 : FVec Ideal S128x1 .f32) (v14 : Vec Ideal S128x1280 .f32) (p : Fin 128) :
    k0_pay5 arg5 arg6 v14 (ix2 p 0)
      = Ideal.exp (arg5 (ix2 p 0) - max (arg5 (ix2 p 0)) (rowMax (fun q : Fin 1280 => v14 (ix2 p q)))) * arg6 (ix2 p 0)
        + ∑ q : Fin 1280, Ideal.exp (v14 (ix2 p q) - max (arg5 (ix2 p 0)) (rowMax (fun q : Fin 1280 => v14 (ix2 p q)))) := by
  unfold k0_pay5
  dsimp only
  rw [addf_apply, mulf_apply, rowSum_apply]
  show Ideal.exp (subf arg5 (k0_pay4 arg5 v14) (ix2 p 0)) * arg6 (ix2 p 0)
      + ∑ q : Fin 1280, Ideal.exp (subf v14 (broadcastTo S128x1280 (k0_pay4 arg5 v14) broadcasts_S128x1_S128x1280) (ix2 p q)) = _
  simp only [subf_apply, broadcastTo_a1_ab_apply, pay4_apply]

/-- The column word of entry (p, q) in trip k is the word of q + 1280 k. -/
theorem col_word (k : ℕ) (q : ℕ) :
    IntOp.addi (BitVec.ofNat 32 q) (Scalar.muli (Scf.iv 0#32 1#32 k) 1280#32) = BitVec.ofNat 32 (q + 1280 * k) := by
  unfold IntOp.addi Scalar.muli IntOp.muli Scf.iv
  rw [BitVec.zero_add, BitVec.mul_one, BitVec.ofNat_add, BitVec.ofNat_mul, BitVec.mul_comm]

/-- A select on an equality test of two words is the `if` on their equality. -/
theorem select_cmpi_eq {α : Type} (x y : BitVec 32) (a b : α) :
    Scalar.select (IntOp.cmpi .eq x y) a b = if x = y then a else b := by
  unfold Scalar.select IntOp.cmpi
  by_cases h : x = y
  · rw [if_pos h, if_pos (by simp [h])]
  · have hb : (x == y) = false := beq_eq_false_iff_ne.mpr h
    rw [if_neg h, if_neg]
    show ¬ BitVec.ofBool (x == y) = 1#1
    rw [hb]; decide

/-- The new picked entry at row p. -/
theorem pay6_apply (v0 : Vec Ideal S128x1 .i32) (k : Fin k0_t1_loop.trips) (arg7 : FVec Ideal S128x1 .f32)
    (v14 : Vec Ideal S128x1280 .f32) (p : Fin 128) :
    k0_pay6 v0 k arg7 v14 (ix2 p 0)
      = arg7 (ix2 p 0) + ∑ q : Fin 1280, if BitVec.ofNat 32 (q.val + 1280 * k.val) = v0 (ix2 p 0) then v14 (ix2 p q) else 0 := by
  unfold k0_pay6
  dsimp only
  rw [addf_apply, rowSum_apply]
  congr 1
  refine Finset.sum_congr rfl fun q _ => ?_
  show Scalar.select (IntOp.cmpi .eq (IntOp.addi (iota .tc S128x1280 32 [1] iota_S128x1280_d1_w32 (ix2 p q))
        (Scalar.muli (Scf.iv 0#32 1#32 k) 1280#32))
      (broadcastTo S128x1280 (shapeCast S128x1 v0 shapeCasts_S128x1_S128x1) broadcasts_S128x1_S128x1280 (ix2 p q)))
      (v14 (ix2 p q)) (Ideal.ofBits .f32 0x00000000#32) = _
  rw [iota_single_apply, broadcastTo_a1_ab_apply, shapeCast_self_apply, select_cmpi_eq, Ideal.ofBits_zero_f32]
  show (if IntOp.addi (BitVec.ofNat 32 q.val) (Scalar.muli (Scf.iv 0#32 1#32 k) 1280#32) = v0 (ix2 p 0) then v14 (ix2 p q) else 0) = _
  rw [col_word]

/-- One trip at row p: the three yields are the chunk's step of the three carried values. -/
theorem trip_apply (v0 : Vec Ideal S128x1 .i32) (k : Fin k0_t1_loop.trips) (arg5 arg6 arg7 : FVec Ideal S128x1 .f32)
    (v14 : Vec Ideal S128x1280 .f32) (p : Fin 128) :
    (k0_pay4 arg5 v14 (ix2 p 0), k0_pay5 arg5 arg6 v14 (ix2 p 0), k0_pay6 v0 k arg7 v14 (ix2 p 0))
      = chunkStep (fun q : Fin 1280 => v14 (ix2 p q)) (1280 * k.val) (v0 (ix2 p 0))
          (arg5 (ix2 p 0), arg6 (ix2 p 0), arg7 (ix2 p 0)) := by
  rw [pay4_apply, pay5_apply, pay6_apply]
  rfl

/-- The stored value at row p. -/
theorem pay7_apply (mx l tt : FVec Ideal S128x1 .f32) (p : Fin 128) :
    k0_pay7 mx l tt (ix2 p 0) = (mx (ix2 p 0) + Ideal.log (l (ix2 p 0))) - tt (ix2 p 0) := by
  unfold k0_pay7
  rfl

end Cert.KernelIdeal.PayloadAt

end
-- ==== Proof.SpecLaws.lean ====
/-
  Laws of the cross-entropy loss over the extended reals, for real-valued rows: the chunk-by-chunk running triple
  ends at the row's maximum, its sum of exponentials and its picked entry; these are real numbers; a label word in
  range picks exactly one entry; and the mean of the negated log-probabilities is the mean of the rows' losses.
-/
import proofs.«419617_j52664888984291_2_alg».proof.Proof.Spec

open scoped BigOperators

noncomputable section

namespace CrossEntropy

open Idealize.ShloMosaic RealClosure

/-! ## Bit patterns -/

theorem ofBits_4096 : Ideal.ofBits .f32 0x45800000#32 = ((4096 : ℝ) : EReal) := by
  simp [Ideal.ofBits, Ideal.ieee, -EReal.coe_mul] <;> norm_num
theorem ofBits_10 : Ideal.ofBits .f32 0x41200000#32 = ((10 : ℝ) : EReal) := by
  simp [Ideal.ofBits, Ideal.ieee, -EReal.coe_mul] <;> norm_num
theorem ofBits_31999 : Ideal.ofBits .f32 0x46F9FE00#32 = ((31999 : ℝ) : EReal) := by
  simp [Ideal.ofBits, Ideal.ieee, -EReal.coe_mul] <;> norm_num
theorem sitofp_31999 : FloatOps.sitofp (F := Ideal) .f32 (31999#32 : BitVec 32) = ((31999 : ℝ) : EReal) := by
  show ((((31999#32 : BitVec 32).toInt : ℝ)) : EReal) = ((31999 : ℝ) : EReal)
  have h : (31999#32 : BitVec 32).toInt = 31999 := by decide
  rw [h]; norm_num
theorem ofBits_neg_inf : Ideal.ofBits .f32 0xFF800000#32 = ⊥ := ofBits_neg_inf_f32

/-! ## Real-valued rows -/

/-- The maximum from -∞ over a set with an element, of real numbers, is a real number. -/
theorem isReal_fold_max {ι : Type*} (s : Finset ι) (hs : s.Nonempty) (f : ι → EReal) (hf : ∀ c ∈ s, IsReal (f c)) :
    IsReal (s.fold max ⊥ f) := by
  obtain ⟨a, ha⟩ := hs
  refine isReal_of_ne ?_ ?_
  · exact ((Finset.lt_fold_max _).2 (Or.inr ⟨a, ha, bot_lt_iff_ne_bot.2 (hf a ha).ne_bot⟩)).ne'
  · exact ((Finset.fold_max_lt _).2 ⟨bot_lt_top, fun i hi => lt_top_iff_ne_top.2 (hf i hi).ne_top⟩).ne

/-- The maximum of a real-valued row with at least one entry is a real number. -/
theorem isReal_rowMax_of_pos {n : Nat} (hn : 0 < n) (f : Fin n → EReal) (hf : ∀ c, IsReal (f c)) : IsReal (rowMax f) :=
  isReal_fold_max _ ⟨⟨0, hn⟩, Finset.mem_univ _⟩ f fun c _ => hf c

theorem isReal_rowMax (f : Fin 32000 → EReal) (hf : ∀ c, IsReal (f c)) : IsReal (rowMax f) :=
  isReal_rowMax_of_pos (by norm_num) f hf
theorem le_rowMax {n : Nat} (f : Fin n → EReal) (c : Fin n) : f c ≤ rowMax f :=
  (Finset.le_fold_max _).2 (Or.inr ⟨c, Finset.mem_univ _, le_rfl⟩)
theorem isReal_rowSumExp (f : Fin 32000 → EReal) (hf : ∀ c, IsReal (f c)) : IsReal (rowSumExp f) :=
  isReal_sum_univ _ fun c => isReal_exp ((hf c).sub (isReal_rowMax f hf))
theorem isReal_log_rowSumExp (f : Fin 32000 → EReal) (hf : ∀ c, IsReal (f c)) : IsReal (Ideal.log (rowSumExp f)) := by
  have hpos : 0 < rowSumExp f :=
    sum_pos_of_isReal _ _ (fun c _ => isReal_exp ((hf c).sub (isReal_rowMax f hf)))
      (fun c _ => exp_pos ((hf c).sub (isReal_rowMax f hf))) ⟨⟨0, by norm_num⟩, Finset.mem_univ _⟩
  obtain ⟨r, hr⟩ := isReal_rowSumExp f hf
  rw [hr] at hpos ⊢
  have hr0 : 0 < r := EReal.coe_pos.1 hpos
  rw [Ideal.log_coe, if_neg (not_le.2 hr0)]
  exact ⟨_, rfl⟩
theorem isReal_rowPick (f : Fin 32000 → EReal) (hf : ∀ c, IsReal (f c)) (tg : BitVec 32) : IsReal (rowPick f tg) :=
  isReal_sum_univ _ fun c => IsReal.ite (hf c) isReal_zero
theorem isReal_rowLoss (f : Fin 32000 → EReal) (hf : ∀ c, IsReal (f c)) (tg : BitVec 32) : IsReal (rowLoss f tg) :=
  ((isReal_rowMax f hf).add (isReal_log_rowSumExp f hf)).sub (isReal_rowPick f hf tg)

/-- A number below 2^32 is the word `tg` exactly when it is `tg` read unsigned. -/
theorem ofNat_eq_iff_toNat (tg : BitVec 32) (n : Nat) (hn : n < 2 ^ 32) : BitVec.ofNat 32 n = tg ↔ n = tg.toNat := by
  rw [← BitVec.toNat_inj, BitVec.toNat_ofNat, Nat.mod_eq_of_lt hn]

/-- A word whose signed reading is not negative reads the same unsigned. -/
theorem toInt_eq_toNat_of_nonneg (tg : BitVec 32) (h : 0 ≤ tg.toInt) : tg.toInt = (tg.toNat : Int) := by
  have hlt := tg.isLt
  rw [BitVec.toInt_eq_toNat_cond] at h ⊢
  split_ifs at h ⊢ with hh
  · rfl
  · omega

/-- A label word in range picks the entry of the column it names. -/
theorem rowPick_of_inRange (f : Fin 32000 → EReal) (tg : BitVec 32) (h : InRange tg) (c : Fin 32000)
    (hc : (c.val : Int) = tg.toInt) : rowPick f tg = f c := by
  have ht := toInt_eq_toNat_of_nonneg tg h.1
  have key : ∀ b : Fin 32000, BitVec.ofNat 32 b.val = tg ↔ b = c := by
    intro b
    have hb := b.isLt
    rw [ofNat_eq_iff_toNat tg b.val (by omega), Fin.ext_iff]
    omega
  unfold rowPick
  rw [Finset.sum_eq_single c]
  · rw [if_pos ((key c).2 rfl)]
  · intro b _ hb
    rw [if_neg fun e => hb ((key b).1 e)]
  · intro hn
    exact absurd (Finset.mem_univ c) hn

/-! ## Chunk by chunk -/

/-- The columns of the chunks before chunk j. -/
def colsBefore (j : ℕ) : Finset (Fin 32000) := Finset.univ.filter fun c => c.val < 1280 * j

theorem mem_colsBefore (j : ℕ) (c : Fin 32000) : c ∈ colsBefore j ↔ c.val < 1280 * j := by
  unfold colsBefore
  rw [Finset.mem_filter]
  exact ⟨fun h => h.2, fun h => ⟨Finset.mem_univ _, h⟩⟩

theorem colsBefore_zero : colsBefore 0 = ∅ := by
  apply Finset.eq_empty_of_forall_notMem
  intro c hc
  rw [mem_colsBefore] at hc
  omega

theorem colsBefore_25 : colsBefore 25 = Finset.univ := by
  apply Finset.eq_univ_of_forall
  intro c
  rw [mem_colsBefore]
  have := c.isLt
  omega

theorem colOf_val (j : Fin 25) (k : Fin 1280) : (colOf j k).val = 1280 * j.val + k.val := rfl

theorem colOf_injective (j : Fin 25) : Function.Injective (colOf j) := by
  intro a b h
  have e := congrArg Fin.val h
  rw [colOf_val, colOf_val] at e
  exact Fin.ext (by omega)

/-- The columns before chunk j + 1 are those before chunk j and those of chunk j. -/
theorem colsBefore_succ (j : ℕ) (h : j < 25) :
    colsBefore (j + 1) = colsBefore j ∪ Finset.univ.image (colOf ⟨j, h⟩) := by
  ext c
  rw [Finset.mem_union, mem_colsBefore, mem_colsBefore, Finset.mem_image]
  constructor
  · intro hc
    by_cases h1 : c.val < 1280 * j
    · exact Or.inl h1
    · refine Or.inr ⟨⟨c.val - 1280 * j, by omega⟩, Finset.mem_univ _, Fin.ext ?_⟩
      rw [colOf_val]
      show 1280 * j + (c.val - 1280 * j) = c.val
      omega
  · rintro (h1 | ⟨k, -, rfl⟩)
    · omega
    · rw [colOf_val]
      have := k.isLt
      show 1280 * j + k.val < 1280 * (j + 1)
      omega

theorem disjoint_colsBefore (j : ℕ) (h : j < 25) :
    Disjoint (colsBefore j) (Finset.univ.image (colOf ⟨j, h⟩)) := by
  rw [Finset.disjoint_left]
  intro c hc hc'
  rw [mem_colsBefore] at hc
  obtain ⟨k, -, rfl⟩ := Finset.mem_image.1 hc'
  rw [colOf_val] at hc
  have e : (⟨j, h⟩ : Fin 25).val = j := rfl
  rw [e] at hc
  omega

theorem sum_colsBefore_succ (j : ℕ) (h : j < 25) (F : Fin 32000 → EReal) :
    ∑ c ∈ colsBefore (j + 1), F c = ∑ c ∈ colsBefore j, F c + ∑ k : Fin 1280, F (colOf ⟨j, h⟩ k) := by
  rw [colsBefore_succ j h, Finset.sum_union (disjoint_colsBefore j h),
    Finset.sum_image fun a _ b _ e => colOf_injective _ e]

theorem fold_colsBefore_succ (j : ℕ) (h : j < 25) (f : Fin 32000 → EReal) :
    (colsBefore (j + 1)).fold max ⊥ f
      = max ((colsBefore j).fold max ⊥ f) (rowMax fun k => f (colOf ⟨j, h⟩ k)) := by
  have hu := Finset.fold_union_inter (op := max) (f := f) (s₁ := colsBefore j)
    (s₂ := Finset.univ.image (colOf ⟨j, h⟩)) (b₁ := ⊥) (b₂ := ⊥)
  rw [Finset.disjoint_iff_inter_eq_empty.1 (disjoint_colsBefore j h), Finset.fold_empty, max_bot_right] at hu
  rw [colsBefore_succ j h, hu, Finset.fold_image fun a _ b _ e => colOf_injective _ e]
  rfl

theorem isReal_fold_colsBefore (f : Fin 32000 → EReal) (hf : ∀ c, IsReal (f c)) (j : ℕ) :
    IsReal ((colsBefore (j + 1)).fold max ⊥ f) := by
  refine isReal_fold_max _ ⟨⟨0, by norm_num⟩, ?_⟩ f fun c _ => hf c
  rw [mem_colsBefore]
  show 0 < 1280 * (j + 1)
  omega

/-- Rescaling a sum of exponentials from one real offset to another. -/
theorem rescale_sum {ι : Type*} (s : Finset ι) (f : ι → EReal) (hf : ∀ c ∈ s, IsReal (f c)) {M m : EReal}
    (hM : IsReal M) (hm : IsReal m) :
    Ideal.exp (M - m) * ∑ c ∈ s, Ideal.exp (f c - M) = ∑ c ∈ s, Ideal.exp (f c - m) := by
  obtain ⟨a, rfl⟩ := hM
  obtain ⟨b, rfl⟩ := hm
  have e : ∀ t : ℝ, ∑ c ∈ s, Ideal.exp (f c - (t : EReal)) = ((∑ c ∈ s, Real.exp ((f c).toReal - t) : ℝ) : EReal) := by
    intro t
    rw [coe_finset_sum]
    refine Finset.sum_congr rfl fun c hc => ?_
    obtain ⟨x, hx⟩ := hf c hc
    rw [hx, ← EReal.coe_sub, Ideal.exp_coe, EReal.toReal_coe]
  rw [e a, e b, ← EReal.coe_sub, Ideal.exp_coe, ← EReal.coe_mul, Finset.mul_sum]
  refine congrArg (fun x : ℝ => (x : EReal)) (Finset.sum_congr rfl fun c _ => ?_)
  rw [← Real.exp_add]
  congr 1
  ring

/-- The running triple before chunk j, in closed form. -/
def chunkInv (f : Fin 32000 → EReal) (tg : BitVec 32) (j : ℕ) : EReal × EReal × EReal :=
  ((colsBefore j).fold max ⊥ f,
   ∑ c ∈ colsBefore j, Ideal.exp (f c - (colsBefore j).fold max ⊥ f),
   ∑ c ∈ colsBefore j, if BitVec.ofNat 32 c.val = tg then f c else 0)

/-- One chunk's update of an explicit triple. -/
theorem chunkStep_mk (g : Fin 1280 → EReal) (base : Nat) (tg : BitVec 32) (A B C : EReal) :
    chunkStep g base tg (A, B, C)
      = (max A (rowMax g),
         Ideal.exp (A - max A (rowMax g)) * B + ∑ k : Fin 1280, Ideal.exp (g k - max A (rowMax g)),
         C + ∑ k : Fin 1280, if BitVec.ofNat 32 (k.val + base) = tg then g k else 0) := rfl

/-- The rescaled running sum of exponentials, one chunk further. -/
theorem sumExp_step (f : Fin 32000 → EReal) (hf : ∀ c, IsReal (f c)) (j : ℕ) (h : j < 25) :
    Ideal.exp ((colsBefore j).fold max ⊥ f - (colsBefore (j + 1)).fold max ⊥ f)
          * (∑ c ∈ colsBefore j, Ideal.exp (f c - (colsBefore j).fold max ⊥ f))
        + ∑ k : Fin 1280, Ideal.exp (f (colOf ⟨j, h⟩ k) - (colsBefore (j + 1)).fold max ⊥ f)
      = ∑ c ∈ colsBefore (j + 1), Ideal.exp (f c - (colsBefore (j + 1)).fold max ⊥ f) := by
  have hR := isReal_fold_colsBefore f hf j
  rw [sum_colsBefore_succ j h]
  refine congrArg (· + ∑ k : Fin 1280, Ideal.exp (f (colOf ⟨j, h⟩ k) - (colsBefore (j + 1)).fold max ⊥ f)) ?_
  rcases Nat.eq_zero_or_pos j with rfl | hj
  · rw [colsBefore_zero, Finset.sum_empty, Finset.sum_empty, mul_zero]
  · obtain ⟨j', rfl⟩ := Nat.exists_eq_succ_of_ne_zero hj.ne'
    exact rescale_sum _ f (fun c _ => hf c) (isReal_fold_colsBefore f hf j') hR

/-- The running picked entry, one chunk further. -/
theorem pick_step (f : Fin 32000 → EReal) (tg : BitVec 32) (j : ℕ) (h : j < 25) :
    (∑ c ∈ colsBefore j, if BitVec.ofNat 32 c.val = tg then f c else 0)
        + (∑ k : Fin 1280, if BitVec.ofNat 32 (k.val + 1280 * j) = tg then f (colOf ⟨j, h⟩ k) else 0)
      = ∑ c ∈ colsBefore (j + 1), if BitVec.ofNat 32 c.val = tg then f c else 0 := by
  rw [sum_colsBefore_succ j h]
  refine congrArg ((∑ c ∈ colsBefore j, if BitVec.ofNat 32 c.val = tg then f c else 0) + ·) ?_
  refine Finset.sum_congr rfl fun k _ => ?_
  have e : k.val + 1280 * j = (colOf ⟨j, h⟩ k).val := by
    rw [colOf_val]
    exact Nat.add_comm _ _
  rw [e]

/-- One chunk's update carries the closed form from j to j + 1. -/
theorem chunkStep_inv (f : Fin 32000 → EReal) (hf : ∀ c, IsReal (f c)) (tg : BitVec 32) (j : ℕ) (h : j < 25) :
    chunkStep (fun k => f (colOf ⟨j, h⟩ k)) (1280 * j) tg (chunkInv f tg j) = chunkInv f tg (j + 1) := by
  unfold chunkInv
  rw [chunkStep_mk, ← fold_colsBefore_succ j h f, sumExp_step f hf j h, pick_step f tg j h]

theorem chunkRun_eq_inv (f : Fin 32000 → EReal) (hf : ∀ c, IsReal (f c)) (tg : BitVec 32) :
    ∀ j : ℕ, j ≤ 25 → chunkRun f tg j = chunkInv f tg j
  | 0, _ => by
    show ((⊥ : EReal), (0 : EReal), (0 : EReal)) = chunkInv f tg 0
    unfold chunkInv
    rw [colsBefore_zero, Finset.fold_empty, Finset.sum_empty, Finset.sum_empty]
  | j + 1, hj => by
    have h : j < 25 := by omega
    rw [chunkRun, dif_pos h, chunkRun_eq_inv f hf tg j (by omega)]
    exact chunkStep_inv f hf tg j h

/-- After the 25 chunks the running triple is the row's maximum, sum of exponentials and picked entry. -/
theorem chunkRun_25 (f : Fin 32000 → EReal) (hf : ∀ c, IsReal (f c)) (tg : BitVec 32) :
    chunkRun f tg 25 = (rowMax f, rowSumExp f, rowPick f tg) := by
  rw [chunkRun_eq_inv f hf tg 25 le_rfl]
  unfold chunkInv
  rw [colsBefore_25]
  rfl

/-- The mean of the negated log-probabilities (entry less maximum less log-sum) is the mean of the rows' losses. -/
theorem neg_mean_eq (X : Fin 4096 → Fin 32000 → EReal) (hX : ∀ r c, IsReal (X r c)) (tg : Fin 4096 → BitVec 32)
    (pick : Fin 4096 → EReal) (hp : ∀ r, pick r = rowPick (X r) (tg r)) :
    -(Ideal.div (∑ r : Fin 4096, ((pick r - rowMax (X r)) - Ideal.log (rowSumExp (X r)))) ((4096 : ℝ) : EReal))
        + ((10 : ℝ) : EReal) * ∑ _r : Fin 4096, ((31999 : ℝ) : EReal)
      = loss X tg := by
  obtain ⟨m, hm⟩ := exists_real_fun fun r => isReal_rowMax (X r) (hX r)
  obtain ⟨l, hl⟩ := exists_real_fun fun r => isReal_log_rowSumExp (X r) (hX r)
  obtain ⟨p, hq⟩ := exists_real_fun fun r => isReal_rowPick (X r) (hX r) (tg r)
  have hm' : ∀ r, rowMax (X r) = (m r : EReal) := fun r => congrFun hm r
  have hl' : ∀ r, Ideal.log (rowSumExp (X r)) = (l r : EReal) := fun r => congrFun hl r
  have hq' : ∀ r, rowPick (X r) (tg r) = (p r : EReal) := fun r => congrFun hq r
  have e1 : ∑ r : Fin 4096, ((pick r - rowMax (X r)) - Ideal.log (rowSumExp (X r)))
      = ((∑ r : Fin 4096, (p r - m r - l r) : ℝ) : EReal) := by
    rw [coe_finset_sum]
    refine Finset.sum_congr rfl fun r _ => ?_
    rw [hp r, hq' r, hm' r, hl' r, ← EReal.coe_sub, ← EReal.coe_sub]
  have e2 : ∑ r : Fin 4096, rowLoss (X r) (tg r) = ((∑ r : Fin 4096, (m r + l r - p r) : ℝ) : EReal) := by
    rw [coe_finset_sum]
    refine Finset.sum_congr rfl fun r _ => ?_
    unfold rowLoss
    rw [hq' r, hm' r, hl' r, ← EReal.coe_add, ← EReal.coe_sub]
  unfold loss
  rw [e1, e2, div_coe_coe _ (by norm_num : (4096 : ℝ) ≠ 0), div_coe_coe _ (by norm_num : (4096 : ℝ) ≠ 0),
    ← EReal.coe_neg]
  have key : -((∑ r : Fin 4096, (p r - m r - l r)) / 4096) = (∑ r : Fin 4096, (m r + l r - p r)) / 4096 := by
    rw [← neg_div, ← Finset.sum_neg_distrib]
    refine congrArg (· / (4096 : ℝ)) (Finset.sum_congr rfl fun r _ => ?_)
    ring
  rw [key]

end CrossEntropy

end
-- ==== Proof.BodyValue.lean ====
/-
  What the kernel body leaves in its output block, row by row: for a real-valued block of logits, row p of the
  stored column is that row's loss, the log-sum-exp of the row's 32000 entries less the entry its label picks.
  The body's loop runs 25 trips; trip k loads columns 1280 k … 1280 k + 1279 of the block and updates, for every
  row, the running maximum, the running sum of exponentials rescaled to the new maximum, and the running picked
  entry: the chunk's step. After the 25 trips the three carried columns hold each row's maximum, sum of
  exponentials and picked entry, and the stored column is maximum + log (sum) - picked.
-/
import proofs.«419617_j52664888984291_2_alg».proof.Proof.Gen.KernelIdeal.Frame
import proofs.«419617_j52664888984291_2_alg».proof.Proof.Payload
import proofs.«419617_j52664888984291_2_alg».proof.Proof.SpecLaws
import Idealize.ShloMosaic.Lib.Pipeline.Value

open scoped BigOperators

noncomputable section

namespace Cert.KernelIdeal.BodyValue

open Idealize.ShloMosaic Idealize.ShloMosaic.ValueIdx Idealize.ShloMosaic.TcCoe Cert.KernelIdeal Cert.KernelIdeal.Gen CrossEntropy RealClosure

/-- The loop makes 25 trips. -/
theorem trips_eq : k0_t1_loop.trips = 25 := by decide

/-- The whole-buffer rectangle's offsets are zero. -/
theorem zero_off : (![0, 0] : Fin S128x1.rank → Nat) = fun _ => 0 := by
  funext a; match a with | ⟨0, _⟩ => rfl | ⟨1, _⟩ => rfl

/-- Trip k's load read at (p, q): column 1280 k + q of row p. -/
theorem ld_chunk {Val : EltTy → Type} (X : S128x32000.Idx → Val .f32) (k : Fin k0_t1_loop.trips) (p : Fin 128) (q : Fin 1280)
    (h : 1280 * k.val + q.val < 32000) :
    View.ld X (Rect.unit (s := S128x32000) (k0_off1 k) S128x1280.size (k0_off1_inb k)) (ix2 p q)
      = X (ix2 p ⟨1280 * k.val + q.val, h⟩) := by
  show X _ = X _
  congr 1
  funext a
  apply Fin.ext
  match a with
  | ⟨0, _⟩ =>
    show (k0_off1 k) 0 + 1 * p.val = p.val
    rw [k0_off1_eq]; simp
  | ⟨1, _⟩ =>
    show (k0_off1 k) 1 + 1 * q.val = 1280 * k.val + q.val
    rw [k0_off1_eq]; simp

section Trip
variable {F : FTy → Type} [FloatOps F]

/-- One trip's result, opened: the three yields over the chunk the trip loads. -/
theorem tripR_eq (𝒱 : Variants) (c : Dev nD) (bd : Option 𝒱.V) (i : grid0.Coords) (arg1 : Memref sig .tc .vmem S128x32000 .f32) (harg1 : arg1.IsWhole)
    (arg2 : Memref sig .tc .vmem S128x1 .i32) (harg2 : arg2.IsWhole) (arg3 : Memref sig .tc .vmem S128x1 .f32) (harg3 : arg3.IsWhole)
    (v0 : Vec F S128x1 .i32) (x0 : Vec F S128x32000 .f32) (k : Fin k0_t1_loop.trips)
    (acc : FVec F S128x1 .f32 × FVec F S128x1 .f32 × FVec F S128x1 .f32) :
    tripR_k0_t1 (F := F) 𝒱 c bd i arg1 harg1 arg2 harg2 arg3 harg3 v0 (harg1.unread x0) k acc
      = (k0_pay4 acc.1 (View.ld x0 (Rect.unit (s := S128x32000) (k0_off1 k) S128x1280.size (k0_off1_inb k))),
         k0_pay5 acc.1 acc.2.1 (View.ld x0 (Rect.unit (s := S128x32000) (k0_off1 k) S128x1280.size (k0_off1_inb k))),
         k0_pay6 v0 k acc.2.2 (View.ld x0 (Rect.unit (s := S128x32000) (k0_off1 k) S128x1280.size (k0_off1_inb k)))) := by
  unfold tripR_k0_t1
  unfold trip_k0_t1
  dsimp only
  simp only [View.readAt_eq_ld, harg1.read_unread]

end Trip

/-- The carried triple before trip n, read at row p: the chunk-by-chunk running triple of that row. -/
theorem st_apply (c : Dev nD) (i : grid0.Coords) (arg1 : Memref sig .tc .vmem S128x32000 .f32) (harg1 : arg1.IsWhole)
    (arg2 : Memref sig .tc .vmem S128x1 .i32) (harg2 : arg2.IsWhole) (arg3 : Memref sig .tc .vmem S128x1 .f32) (harg3 : arg3.IsWhole)
    (x0 : Vec Ideal S128x32000 .f32) (x1 : Vec Ideal S128x1 .i32) (p : Fin 128) (n : ℕ) (hn : n ≤ 25) :
    (((st_k0_t1 (F := Ideal) Variants.none c none i arg1 harg1 arg2 harg2 arg3 harg3 x1 (harg1.unread x0)
          (k0_pay1 (F := Ideal), k0_pay2 (F := Ideal), k0_pay3 (F := Ideal)) n).1 (ix2 p 0),
      (st_k0_t1 (F := Ideal) Variants.none c none i arg1 harg1 arg2 harg2 arg3 harg3 x1 (harg1.unread x0)
          (k0_pay1 (F := Ideal), k0_pay2 (F := Ideal), k0_pay3 (F := Ideal)) n).2.1 (ix2 p 0),
      (st_k0_t1 (F := Ideal) Variants.none c none i arg1 harg1 arg2 harg2 arg3 harg3 x1 (harg1.unread x0)
          (k0_pay1 (F := Ideal), k0_pay2 (F := Ideal), k0_pay3 (F := Ideal)) n).2.2 (ix2 p 0)) : EReal × EReal × EReal)
      = chunkRun (fun col : Fin 32000 => x0 (ix2 p col)) (x1 (ix2 p 0)) n := by
  induction n with
  | zero =>
    rw [st_k0_t1_zero]
    show ((k0_pay1 (F := Ideal)) (ix2 p 0), (k0_pay2 (F := Ideal)) (ix2 p 0), (k0_pay3 (F := Ideal)) (ix2 p 0)) = (⊥, 0, 0)
    rw [PayloadAt.pay1_apply, PayloadAt.pay2_apply, PayloadAt.pay3_apply]
  | succ n ih =>
    have hlt : n < 25 := hn
    have hk : n < k0_t1_loop.trips := by rw [trips_eq]; exact hlt
    have hs := st_k0_t1_succ (F := Ideal) Variants.none c none i arg1 harg1 arg2 harg2 arg3 harg3 x1 (harg1.unread x0)
      (k0_pay1 (F := Ideal), k0_pay2 (F := Ideal), k0_pay3 (F := Ideal)) ⟨n, hk⟩
    rw [show (⟨n, hk⟩ : Fin k0_t1_loop.trips).val + 1 = n + 1 from rfl, show (⟨n, hk⟩ : Fin k0_t1_loop.trips).val = n from rfl] at hs
    rw [hs, tripR_eq]
    dsimp only
    rw [PayloadAt.trip_apply, ih (Nat.le_of_lt hlt)]
    show _ = (if h : n < 25 then _ else _)
    rw [dif_pos hlt]
    congr 1
    funext q
    exact ld_chunk x0 ⟨n, hk⟩ p q (by have := q.isLt; show 1280 * n + q.val < 32000; omega)

theorem body_value (c : Dev nD) (i : grid0.Coords) (arg1 : Memref sig .tc .vmem S128x32000 .f32) (harg1 : arg1.IsWhole)
    (arg2 : Memref sig .tc .vmem S128x1 .i32) (harg2 : arg2.IsWhole) (arg3 : Memref sig .tc .vmem S128x1 .f32) (harg3 : arg3.IsWhole)
    (x0 : Vec Ideal S128x32000 .f32) (x1 : Vec Ideal S128x1 .i32) (hx : ∀ j, IsReal (x0 j)) (p : Fin 128) :
    out0_A_2 (F := Ideal) c i arg1 harg1 arg2 harg2 arg3 harg3 x0 x1 (ix2 p 0)
      = rowLoss (fun col : Fin 32000 => x0 (ix2 p col)) (x1 (ix2 p 0)) := by
  unfold out0_A_2
  rw [View.read_writes_eq_canon _ _ _ (cover0_A_2 c i arg1 harg1 arg2 harg2 arg3 harg3 x0 x1)]
  unfold kernelRun0_A
  dsimp only
  rw [View.canon_unit_zero zero_off]
  simp only [View.readAt_eq_ld, harg2.read_unread, View.ld_unit_zero (S := S128x1) zero_off]
  rw [PayloadAt.pay7_apply]
  have h25 : Scf.trips (0#32) (Scalar.addi 0#32 25#32) 1#32 = 25 := by decide
  rw [h25]
  have hst := st_apply c i arg1 harg1 arg2 harg2 arg3 harg3 x0 x1 p 25 le_rfl
  rw [chunkRun_25 _ (fun col => hx _)] at hst
  have h1 := congrArg Prod.fst hst
  have h2 := congrArg (fun t => t.2.1) hst
  have h3 := congrArg (fun t => t.2.2) hst
  dsimp only at h1 h2 h3
  rw [h1, h2, h3]
  rfl

end Cert.KernelIdeal.BodyValue

end
-- ==== Proof.KernelRun.lean ====
/-
  The kernel program's run at the extended reals: for real-valued logits every weakly fair execution terminates
  with the result at the loss — each grid point writes the losses of its 128 rows, the blocks tile the column of
  4096 row losses, and the lines after the region take their mean and add the constant penalty.
-/
import proofs.«419617_j52664888984291_2_alg».proof.Proof.Gen.KernelIdeal.Frame
import proofs.«419617_j52664888984291_2_alg».proof.Proof.BodyValue
import proofs.«419617_j52664888984291_2_alg».proof.Proof.SpecLaws
import Idealize.ShloMosaic.Lib.Pipeline.Value
import Idealize.ShloMosaic.Lib.ValueLayout
import Idealize.ShloMosaic.Lib.IdealHost
import Idealize.ShloMosaic.Lib.ValueIdxRank1
import Idealize.ShloMosaic.PureOps.Ideal.Laws

open scoped BigOperators

noncomputable section

namespace Cert.KernelIdeal.KernelRun

open Idealize.ShloMosaic Idealize.ShloMosaic.ValueIdx Idealize.ShloMosaic.TcCoe Idealize.SL.Sem Cert.KernelIdeal Cert.KernelIdeal.Gen CrossEntropy RealClosure

section Blocks

variable (m : (ℓ : Loc nD τ sig) → Buf (Elt Ideal) ℓ)

/-- The logits as the region finds them. -/
abbrev xarr (c : Dev nD) : Vec Ideal S4096x32000 .f32 := V m c main_arg0
/-- The column of label words as the region finds it. -/
abbrev tarr (c : Dev nD) : Vec Ideal S4096x1 .i32 := V m c main_v0

/-- A grid point's number is below 32. -/
theorem point_lt (t : Fin cfg0.N) : t.val < 32 := lt_of_lt_of_eq t.isLt N_0

/-- The three index maps over the grid: block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of the logits' block at point t is row 128 t + p of the logits. -/
theorem xblk_apply (c : Dev nD) (t : Fin cfg0.N) (p : Fin 128) (col : Fin 32000) (r : Fin 4096)
    (hr : r.val = 128 * t.val + p.val) :
    (iblk m c 0 t : Vec Ideal S128x32000 .f32) (ix2 p col) = xarr m c (ix2 r col) := by
  obtain ⟨e0, e1, -⟩ := block_index t
  show V m c main_arg0 (((cfg0.win 0).blk t).view.emb (ix2 p col)) = V m c main_arg0 (ix2 r col)
  refine congrArg (V m c main_arg0) (funext fun a => Fin.ext ?_)
  match a with
  | ⟨0, _⟩ => show win0_0.index t (0 : Fin 2) * 128 + 1 * p.val = r.val; omega
  | ⟨1, _⟩ => show win0_0.index t (1 : Fin 2) * 32000 + 1 * col.val = col.val; omega

/-- Row p of the labels' block at point t is row 128 t + p of the label column. -/
theorem tblk_apply (c : Dev nD) (t : Fin cfg0.N) (p : Fin 128) (r : Fin 4096)
    (hr : r.val = 128 * t.val + p.val) :
    (iblk m c 1 t : Vec Ideal S128x1 .i32) (ix2 p 0) = tarr m c (ix2 r 0) := by
  obtain ⟨-, -, e0, e1, -⟩ := block_index t
  show V m c main_v0 (((cfg0.win 1).blk t).view.emb (ix2 p 0)) = V m c main_v0 (ix2 r 0)
  refine congrArg (V m c main_v0) (funext fun a => Fin.ext ?_)
  match a with
  | ⟨0, _⟩ => show win0_1.index t (0 : Fin 2) * 128 + 1 * p.val = r.val; omega
  | ⟨1, _⟩ => show win0_1.index t (1 : Fin 2) * 1 + 1 * 0 = 0; omega

/-- The label column is the label vector reshaped: row r holds label r. -/
theorem tarr_apply (c : Dev nD) (r : Fin 4096) :
    tarr m c (ix2 r 0) = m ((c.tc : Thread nD τ).loc main_arg1) (ix1 r) := by
  have e : (V m c main_v0 : S4096x1.Idx → BitVec 32)
      = shapeCast S4096x1 (m ((c.tc : Thread nD τ).loc main_arg1) : S4096.Idx → BitVec 32) shapeCasts_S4096_S4096x1 := by
    show StableHlo.after hostOps0 (fun b => m (c, b)) (Proc.devRef .tc main_v0) = _
    after_results
    rfl
  show V m c main_v0 (ix2 r 0) = _
  rw [e]
  refine shapeCast_apply _ _ _ _ ?_
  show (S4096.rowMajor (ix1 r)).val = (S4096x1.rowMajor (ix2 r 0)).val
  rw [Shape.rowMajor_val_two, Shape.rowMajor_val_one]
  show r.val = r.val * 1 + 0
  omega

/-- The logits the region finds are the launched ones. -/
theorem xarr_eq (c : Dev nD) : xarr m c = m ((c.tc : Thread nD τ).loc main_arg0) := V_main_arg0 m c

end Blocks

section Column

variable (m : (ℓ : Loc nD τ sig) → Buf (Elt Ideal) ℓ)

/-- The column of row losses, of the logits and the label column as the region finds them. -/
abbrev lossCol (c : Dev nD) : S4096x1.Idx → EReal :=
  fun i => rowLoss (fun col : Fin 32000 => xarr m c (ix2 (i 0) col)) (tarr m c (ix2 (i 0) 0))

/-- Every index of a one-column block is a row and column 0. -/
theorem eq_row (j : S128x1.Idx) : j = ix2 (j 0) 0 :=
  (eq_ix2 j).trans (congrArg (ix2 (j 0)) (Fin.ext (by have h := idx2_lt1 j; show (j 1).val = 0; omega)))

/-- What point t writes back is block t of the column of row losses. -/
theorem point_writes_losses (hx : ∀ (c : Dev nD) (i : S4096x32000.Idx), IsReal (m ((c.tc : Thread nD τ).loc main_arg0) i))
    (c : Dev nD) (t : Fin cfg0.N) :
    (dats m 0 c).flushed 2 t = ((cfg0.win 2).blk t).view.read (Elt Ideal) (lossCol m c) := by
  show (cfg0.win 2).cut (grid0.coords t) ((dats m 0 c).after 2 t) = _
  rw [after0_2]
  unfold outsAt0
  refine funext fun (j : S128x1.Idx) => ?_
  obtain ⟨p, rfl⟩ : ∃ p : Fin 128, j = ix2 p 0 := ⟨j 0, eq_row j⟩
  obtain ⟨-, -, -, -, e0, e1⟩ := block_index t
  have ht := point_lt t
  have hr : ((((cfg0.win 2).blk t).view.emb (ix2 p 0) : S4096x1.Idx) 0).val = 128 * t.val + p.val := by
    show win0_2.index t (0 : Fin 2) * 128 + 1 * p.val = _
    omega
  show out0_A_2 (F := Ideal) c (grid0.coords t) (ms0_0 t) (hs0_0 t) (ms0_1 t) (hs0_1 t) (ms0_2 t) (hs0_2 t) (iblk m c 0 t) (iblk m c 1 t) (ix2 p 0)
    = lossCol m c (((cfg0.win 2).blk t).view.emb (ix2 p 0))
  refine (BodyValue.body_value c (grid0.coords t) (ms0_0 t) (hs0_0 t) (ms0_1 t) (hs0_1 t) (ms0_2 t) (hs0_2 t) (iblk m c 0 t) (iblk m c 1 t) ?_ p).trans ?_
  · intro j
    obtain ⟨q, col, rfl⟩ : ∃ (q : Fin 128) (col : Fin 32000), j = ix2 q col := ⟨j 0, j 1, eq_ix2 j⟩
    have hq := q.isLt
    rw [xblk_apply m c t q col ⟨128 * t.val + q.val, by omega⟩ rfl, xarr_eq]
    exact hx c _
  · have h1 : (fun col : Fin 32000 => (iblk m c 0 t : Vec Ideal S128x32000 .f32) (ix2 p col))
        = fun col => xarr m c (ix2 ((((cfg0.win 2).blk t).view.emb (ix2 p 0) : S4096x1.Idx) 0) col) :=
      funext fun col => xblk_apply m c t p col _ hr
    have h2 := tblk_apply m c t p _ hr
    exact congrArg₂ (rowLoss (n := 32000)) h1 h2

end Column

section Array

variable (m : (ℓ : Loc nD τ sig) → Buf (Elt Ideal) ℓ)

/-- An index of the column is in point t's block iff each coordinate is in the block's range on its axis. -/
theorem mem_block_iff (t : Fin cfg0.N) (i : S4096x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v1).slice (win0_2.rect t)).set ↔ _
  rw [View.set_slice_whole, Rect.mem_set_unit]
  exact Iff.rfl

/-- The blocks tile the column: row r is in the block of point r / 128. -/
theorem rows_tiled (i : S4096x1.Idx) :
    ∃ t : Fin cfg0.N, (cfg0.win 2).flush t = true ∧ i ∈ ((cfg0.win 2).blk t).view.set := by
  have h0 : (i 0).val < 4096 := idx2_lt0 i
  have h1 : (i 1).val < 1 := idx2_lt1 i
  obtain ⟨t, ht⟩ : ∃ t : Fin cfg0.N, t.val = (i 0).val / 128 :=
    ⟨⟨(i 0).val / 128, lt_of_lt_of_eq (by omega) N_0.symm⟩, rfl⟩
  obtain ⟨-, -, -, -, e0, e1⟩ := block_index t
  refine ⟨t, flush0_2 t, ?_⟩
  rw [mem_block_iff]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1 ≤ (i 1).val ∧ (i 1).val < win0_2.index t (1 : Fin 2) * 1 + 1
    omega

/-- The output array after the run is the column of row losses. -/
theorem column_after_run (hx : ∀ (c : Dev nD) (i : S4096x32000.Idx), IsReal (m ((c.tc : Thread nD τ).loc main_arg0) i))
    (c : Dev nD) : (dats m 0 c).arrAt 2 cfg0.N = lossCol m c :=
  (dats m 0 c).arrAt_eq_of_cover 2 (lossCol m c) (fun t _ => point_writes_losses m hx c t) rows_tiled

/-- The lines after the region: the mean of the column plus ten times the sum of 4096 copies of 31999. -/
theorem mean_plus_penalty (hx : ∀ (c : Dev nD) (i : S4096x32000.Idx), IsReal (m ((c.tc : Thread nD τ).loc main_arg0) i))
    (c : Dev nD) :
    Pipeline.afterTail₀ cfgs (dats m) 0 (V0 m) [hostOps1] c main_v7
      = (fun _ => loss (fun r col => m ((c.tc : Thread nD τ).loc main_arg0) (ix2 r col))
                      (fun r => m ((c.tc : Thread nD τ).loc main_arg1) (ix1 r))) := by
  unfold Pipeline.afterTail₀
  show StableHlo.after hostOps1 _ (Proc.devRef .tc main_v7) = _
  after_results
  have hv1 : Pipeline.withArrays (cfgs 0).spec c (V0 m c) (fun w => (dats m 0 c).arrAt w (cfgs 0).N) (Proc.devRef .tc main_v1)
      = lossCol m c := (Pipeline.withArrays_arr spec0 launch0.win.arr_inj c _ _ 2).trans (column_after_run m hx c)
  rw [hv1]
  have hsum : ∑ i : S4096x1.Idx, lossCol m c i
      = ∑ r : Fin 4096, rowLoss (fun col : Fin 32000 => m ((c.tc : Thread nD τ).loc main_arg0) (ix2 r col))
          (m ((c.tc : Thread nD τ).loc main_arg1) (ix1 r)) := by
    rw [sum_idx2]
    refine Finset.sum_congr rfl fun r _ => ?_
    rw [Fin.sum_univ_one]
    show rowLoss (fun col : Fin 32000 => xarr m c (ix2 r col)) (tarr m c (ix2 r 0)) = _
    rw [tarr_apply, xarr_eq]
  have hpen : ∑ i : S4096.Idx, broadcastInDim S4096 ![] bcast_S_S4096 (constant (F := Ideal) S_ .f32 0x46F9FE00#32) i
      = ∑ _r : Fin 4096, ((31999 : ℝ) : EReal) := by
    rw [← Equiv.sum_comp (idxEquiv1 (n := 4096)).symm]
    refine Finset.sum_congr rfl fun r _ => ?_
    rw [broadcastInDim_scalar_apply, constant_apply, ofBits_31999]
  funext j
  simp only [addf_apply, mulf_apply, hostDivf_apply, hostReduceAdd_apply, constant_apply]
  rw [Ideal.hostReduceAdd_total reducesTo_S4096x1_S_d0_1 (fun b => b.elim0),
    Ideal.hostReduceAdd_total reducesTo_S4096_S_d0 (fun b => b.elim0), hsum, hpen,
    Ideal.ofBits_zero_f32, zero_add, zero_add, ofBits_4096, ofBits_10]
  rfl

end Array

theorem kernel_run (m : (ℓ : Loc nD τ sig) → Buf (Elt Ideal) ℓ) (ρ : Dev nD → PrngReg)
    (hx : ∀ (c : Dev nD) (i : S4096x32000.Idx), IsReal (m ((c.tc : Thread nD τ).loc main_arg0) i)) :
    θ_run (defs (F := Ideal)) (onTc (τ := τ) (main (F := Ideal))) ⟨m, fun _ => 0, ρ⟩ fun r => ∀ c : Dev nD,
      r.2.mem ((c.tc : Thread nD τ).loc main_v7)
          = (fun _ => loss (fun r col => m ((c.tc : Thread nD τ).loc main_arg0) (ix2 r col))
                          (fun r => m ((c.tc : Thread nD τ).loc main_arg1) (ix1 r)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · exact ((h c).2 main_v7 (Pipeline.mem_restRefs_of main_v7 (by decide) (by decide))).trans (mean_plus_penalty m hx c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.KernelRun

end
-- ==== Proof.RefTerm.lean ====
/-
  The reference's result as one term of its two arguments: the operations of its program composed in order
  (log-softmax of the logits; the label read as a column number, a negative one wrapped by the row length, and tested
  to lie in the row; the entry gathered there, or the not-a-number pattern; the negated mean over the rows; plus ten
  times the sum of the constant 32000 - 1 over the rows).
-/
import proofs.«419617_j52664888984291_2_alg».proof.Proof.Gen.ReferenceIdeal

noncomputable section

namespace Cert.ReferenceIdeal.RefTerm

open Cert.ReferenceIdeal Cert.ReferenceIdeal.Gen Idealize.ShloMosaic Idealize.ShloMosaic.TcCoe Idealize.SL.Sem Idealize.ShloMosaic.StableHlo

variable {F : FTy → Type} [FloatOps F]

def refTerm (x : FVec F S4096x32000 .f32) (tg : IVec S4096 32) : FVec F S_ .f32 :=
  addf (Host.negf (Host.divf (Host.reduceAdd (select (Host.reduce IntOp.andi (andi (cmpi .sge (shapeCast _ (select (cmpi .slt (broadcastInDim S4096x1 ![0] bcast_S4096_S4096x1_0 tg) (broadcastInDim S4096x1 ![] bcast_S_S4096x1 (constantI S_ 32 0#32))) (addi (broadcastInDim S4096x1 ![0] bcast_S4096_S4096x1_0 tg) (broadcastInDim S4096x1 ![] bcast_S_S4096x1 (constantI S_ 32 32000#32))) (broadcastInDim S4096x1 ![0] bcast_S4096_S4096x1_0 tg)) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 tg) (broadcastInDim S4096x1 ![] bcast_S_S4096x1 (constantI S_ 32 0#32))) (addi (broadcastInDim S4096x1 ![0] bcast_S4096_S4096x1_0 tg) (broadcastInDim S4096x1 ![] bcast_S_S4096x1 (constantI S_ 32 32000#32))) (broadcastInDim S4096x1 ![0] bcast_S4096_S4096x1_0 tg)) shapeCasts_S4096x1_S4096x1x1) (broadcastInDim S4096x1x1 ![0, 1, 2] bcast_S1x1x1_S4096x1x1_0_1_2 (broadcastInDim S1x1x1 ![2] bcast_S1_S1x1x1_2 (constantI S1 32 31999#32))))) (constantI S_ 1 1#1) reducesTo_S4096x1x1_S4096x1_d2 h_S_) (Host.gather gather_S4096x32000_S4096x1x1_S4096x1_n_1_0_0_1_2_11 (subf (subf x (broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf x (constant S_ .f32 0xFF800000#32) reducesTo_S4096x32000_S4096_d1 h_S_))))) (broadcastInDim S4096x32000 ![0, 1] bcast_S4096x1_S4096x32000_0_1 (Host.log (broadcastInDim S4096x1 ![0] bcast_S4096_S4096x1_0 (Host.reduceAdd (Host.exp (subf x (broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf x (constant S_ .f32 0xFF800000#32) reducesTo_S4096x32000_S4096_d1 h_S_)))))) (constant S_ .f32 0x00000000#32) reducesTo_S4096x32000_S4096_d1 h_S_))))) (shapeCast _ (select (cmpi .slt (broadcastInDim S4096x1 ![0] bcast_S4096_S4096x1_0 tg) (broadcastInDim S4096x1 ![] bcast_S_S4096x1 (constantI S_ 32 0#32))) (addi (broadcastInDim S4096x1 ![0] bcast_S4096_S4096x1_0 tg) (broadcastInDim S4096x1 ![] bcast_S_S4096x1 (constantI S_ 32 32000#32))) (broadcastInDim S4096x1 ![0] bcast_S4096_S4096x1_0 tg)) shapeCasts_S4096x1_S4096x1x1)) (broadcastInDim S4096x1 ![] bcast_S_S4096x1 (constant S_ .f32 0x7FC00000#32))) (constant S_ .f32 0x00000000#32) reducesTo_S4096x1_S_d0_1 h_S_) (constant S_ .f32 0x45800000#32))) (mulf (constant S_ .f32 0x41200000#32) (Host.reduceAdd (sitofp .f32 (select (cmpi .slt (broadcastInDim S4096 ![] bcast_S_S4096 (constantI S_ 32 1#32)) (broadcastInDim S4096 ![] bcast_S_S4096 (constantI S_ 32 32000#32))) (subi (broadcastInDim S4096 ![] bcast_S_S4096 (constantI S_ 32 32000#32)) (broadcastInDim S4096 ![] bcast_S_S4096 (constantI S_ 32 1#32))) (broadcastInDim S4096 ![] bcast_S_S4096 (id (constantI S_ 32 0#32))))) (constant S_ .f32 0x00000000#32) reducesTo_S4096_S_d0 h_S_))

end Cert.ReferenceIdeal.RefTerm

end
-- ==== Proof.RefRun.lean ====
/-
  The reference program's run: every weakly fair execution terminates with the result buffer at the composed term
  of the two arguments, the arguments unchanged.

  The program is a straight line of 63 operations, each writing one buffer of its own, so after the run every buffer
  holds its operation's function of what the operand buffers hold after the run. Six of these values are stated as
  short terms of one another and of the arguments (the shifted logits, the log-softmax, the column number, its range
  test, the negated mean, the result); each is the fold of the operations read at that buffer on both sides of the
  equation, where the operations of the inlined functions move contents between a value's type and its buffer's type
  and back: such a round trip is the identity, and a single move at a literal buffer is one too, its two types being
  the same. The composed term is the six substituted into one another.
-/
import proofs.«419617_j52664888984291_2_alg».proof.Proof.Gen.ReferenceIdeal
import proofs.«419617_j52664888984291_2_alg».proof.Proof.RefOps
import proofs.«419617_j52664888984291_2_alg».proof.Proof.RefTerm
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-- Contents moved to a buffer's own type and back are the contents. -/
theorem ofBuf_toBuf {T : BufTy} (x : TRef sig T) (v : T.Contents (Elt F)) : x.ofBuf (x.toBuf v) = v := by
  simp only [TRef.ofBuf, TRef.toBuf, cast_cast, cast_eq]

set_option maxRecDepth 8192 in
/-- After the run, the first intermediate of the log-softmax: the logits minus their row maximum (the maximum taken
    against minus infinity), as a term of the launch contents of the first argument. -/
theorem s_shift (V : Valuation τ sig (Elt F)) :
    after ops V (Proc.devRef .tc main_call0_v5) = subf (V (Proc.devRef .tc main_arg0)) (broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf (V (Proc.devRef .tc main_arg0)) (constant S_ .f32 0xFF800000#32) reducesTo_S4096x32000_S4096_d1 h_S_)))) := by
  after_results_simp
  simp only [ofBuf_toBuf]
  simp only [TRef.ofBuf, TRef.toBuf, cast_eq]

set_option maxRecDepth 8192 in
/-- The log-softmax, over the shifted logits: they minus the logarithm of the row sum of their exponentials. -/
theorem s_lsm (V : Valuation τ sig (Elt F)) :
    after ops V (Proc.devRef .tc main_v0) = subf (after ops V (Proc.devRef .tc main_call0_v5) : FVec F S4096x32000 .f32) (broadcastInDim S4096x32000 ![0, 1] bcast_S4096x1_S4096x32000_0_1 (Host.log (broadcastInDim S4096x1 ![0] bcast_S4096_S4096x1_0 (Host.reduceAdd (Host.exp (after ops V (Proc.devRef .tc main_call0_v5) : FVec F S4096x32000 .f32)) (constant S_ .f32 0x00000000#32) reducesTo_S4096x32000_S4096_d1 h_S_)))) := by
  after_results_simp
  simp only [ofBuf_toBuf]
  simp only [TRef.ofBuf, TRef.toBuf, cast_eq]

set_option maxRecDepth 8192 in
/-- The label read as a column number: a negative one moved up by the row length 32000, then one index vector of
    length one per row. The reshape leaves the value at the buffer's own shape, which is the literal one. -/
theorem s_idx (V : Valuation τ sig (Elt F)) :
    after ops V (Proc.devRef .tc main_call1_v5) = shapeCast _ (select (cmpi .slt (broadcastInDim S4096x1 ![0] bcast_S4096_S4096x1_0 (V (Proc.devRef .tc main_arg1))) (broadcastInDim S4096x1 ![] bcast_S_S4096x1 (constantI S_ 32 0#32))) (addi (broadcastInDim S4096x1 ![0] bcast_S4096_S4096x1_0 (V (Proc.devRef .tc main_arg1))) (broadcastInDim S4096x1 ![] bcast_S_S4096x1 (constantI S_ 32 32000#32))) (broadcastInDim S4096x1 ![0] bcast_S4096_S4096x1_0 (V (Proc.devRef .tc main_arg1)))) shapeCasts_S4096x1_S4096x1x1 := by
  after_results_simp
  simp only [ofBuf_toBuf]
  simp only [TRef.ofBuf, TRef.toBuf, cast_eq]
  rfl

set_option maxRecDepth 8192 in
/-- The range test of the column number: at least 0 and at most 31999, the conjunction over the index vector's one
    entry. -/
theorem s_ok (V : Valuation τ sig (Elt F)) :
    after ops V (Proc.devRef .tc main_call1_v12) = Host.reduce IntOp.andi (andi (cmpi .sge (after ops V (Proc.devRef .tc main_call1_v5) : IVec S4096x1x1 32) (broadcastInDim S4096x1x1 ![] bcast_S_S4096x1x1 (constantI S_ 32 0#32))) (cmpi .sle (after ops V (Proc.devRef .tc main_call1_v5) : IVec S4096x1x1 32) (broadcastInDim S4096x1x1 ![0, 1, 2] bcast_S1x1x1_S4096x1x1_0_1_2 (broadcastInDim S1x1x1 ![2] bcast_S1_S1x1x1_2 (constantI S1 32 31999#32))))) (constantI S_ 1 1#1) reducesTo_S4096x1x1_S4096x1_d2 h_S_ := by
  after_results_simp
  simp only [ofBuf_toBuf]
  simp only [TRef.ofBuf, TRef.toBuf, cast_eq]

set_option maxRecDepth 8192 in
/-- The negated mean over the 4096 rows of the entry gathered at the column number, the not-a-number pattern standing
    where the range test fails. -/
theorem s_mean (V : Valuation τ sig (Elt F)) :
    after ops V (Proc.devRef .tc main_v5) = Host.negf (Host.divf (Host.reduceAdd (select (after ops V (Proc.devRef .tc main_call1_v12) : IVec S4096x1 1) (Host.gather gather_S4096x32000_S4096x1x1_S4096x1_n_1_0_0_1_2_11 (after ops V (Proc.devRef .tc main_v0) : FVec F S4096x32000 .f32) (after ops V (Proc.devRef .tc main_call1_v5) : IVec S4096x1x1 32)) (broadcastInDim S4096x1 ![] bcast_S_S4096x1 (constant S_ .f32 0x7FC00000#32))) (constant S_ .f32 0x00000000#32) reducesTo_S4096x1_S_d0_1 h_S_) (constant S_ .f32 0x45800000#32)) := by
  after_results_simp
  simp only [ofBuf_toBuf]
  simp only [TRef.ofBuf, TRef.toBuf, cast_eq]

set_option maxRecDepth 8192 in
/-- The result: that mean plus ten times the sum over the rows of the constant 32000 - 1, a term of no argument. -/
theorem s_out (V : Valuation τ sig (Elt F)) :
    after ops V (Proc.devRef .tc main_v17) = addf (after ops V (Proc.devRef .tc main_v5) : FVec F S_ .f32) (mulf (constant S_ .f32 0x41200000#32) (Host.reduceAdd (sitofp .f32 (select (cmpi .slt (broadcastInDim S4096 ![] bcast_S_S4096 (constantI S_ 32 1#32)) (broadcastInDim S4096 ![] bcast_S_S4096 (constantI S_ 32 32000#32))) (subi (broadcastInDim S4096 ![] bcast_S_S4096 (constantI S_ 32 32000#32)) (broadcastInDim S4096 ![] bcast_S_S4096 (constantI S_ 32 1#32))) (broadcastInDim S4096 ![] bcast_S_S4096 (id (constantI S_ 32 0#32))))) (constant S_ .f32 0x00000000#32) reducesTo_S4096_S_d0 h_S_)) := by
  after_results_simp
  simp only [ofBuf_toBuf]
  simp only [TRef.ofBuf, TRef.toBuf, cast_eq]

set_option maxRecDepth 8192 in
/-- The result buffer after the run is the composed term of the two arguments' launch contents: the six stage values
    substituted into one another, outermost first, give the term's body symbol for symbol. -/
theorem result (V : Valuation τ sig (Elt F)) :
    after ops V (Proc.devRef .tc main_v17) = RefTerm.refTerm (V (Proc.devRef .tc main_arg0)) (V (Proc.devRef .tc main_arg1)) := by
  rw [s_out, s_mean, s_ok, s_lsm, s_shift, s_idx]
  rfl

set_option maxRecDepth 8192 in
/-- No operation writes the first argument's buffer. -/
theorem arg0_kept (V : Valuation τ sig (Elt F)) :
    after ops V (Proc.devRef .tc main_arg0) = V (Proc.devRef .tc main_arg0) := by
  after_results_simp

set_option maxRecDepth 8192 in
/-- No operation writes the second argument's buffer. -/
theorem arg1_kept (V : Valuation τ sig (Elt F)) :
    after ops V (Proc.devRef .tc main_arg1) = V (Proc.devRef .tc main_arg1) := by
  after_results_simp

set_option maxRecDepth 8192 in
set_option maxHeartbeats 4000000 in
/-- On every device, for any float values, from any memory with zero counters: every weakly fair execution of the
    reference terminates with the result at the composed term of the two arguments and the arguments unchanged. The
    program is a straight line of operations, so each buffer ends at the fold of the operations' results over the
    launch contents; the three clauses are that fold read at the result buffer and at the two argument buffers. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (result _),
      (h c main_arg0).trans (arg0_kept _), (h c main_arg1).trans (arg1_kept _)⟩)
    (run_seq scopedRefs_eq scopedSems_eq defs main (fun _ => ops) main_eq (fun _ => ops_sub) m ρ)

end Cert.ReferenceIdeal.RefRun

end
-- ==== Proof.RefValue.lean ====
/-
  The reference's composed term is the loss: for real-valued logits and label words that name a column, the
  log-softmax entry gathered at the label is entry - maximum - log (sum of exponentials), the range test passes,
  and the negated mean plus the constant penalty is the mean of the rows' losses plus the penalty.
-/
import proofs.«419617_j52664888984291_2_alg».proof.Proof.RefTerm
import proofs.«419617_j52664888984291_2_alg».proof.Proof.SpecLaws
import Idealize.ShloMosaic.Lib.Pipeline.Value
import Idealize.ShloMosaic.Lib.ValueLayout
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx CrossEntropy RealClosure

/-! ## Layout operations read at an index -/

section Layout
variable {α : Type}

theorem bc_scalar_S4096 (v : S_.Idx → α) (i : S4096.Idx) :
    broadcastInDim S4096 ![] bcast_S_S4096 v i = v ix0 :=
  broadcastInDim_apply _ bcast_S_S4096 v i ix0 (fun a => a.elim0)

theorem bc_scalar_S4096x1 (v : S_.Idx → α) (i : S4096x1.Idx) :
    broadcastInDim S4096x1 ![] bcast_S_S4096x1 v i = v ix0 :=
  broadcastInDim_apply _ bcast_S_S4096x1 v i ix0 (fun a => a.elim0)

theorem bc_scalar_S4096x1x1 (v : S_.Idx → α) (i : S4096x1x1.Idx) :
    broadcastInDim S4096x1x1 ![] bcast_S_S4096x1x1 v i = v ix0 :=
  broadcastInDim_apply _ bcast_S_S4096x1x1 v i ix0 (fun a => a.elim0)

theorem bc_row (v : S4096.Idx → α) (r : Fin 4096) (b : Fin 1) :
    broadcastInDim S4096x1 ![0] bcast_S4096_S4096x1_0 v (ix2 r b) = v (ix1 r) :=
  broadcastInDim_apply _ bcast_S4096_S4096x1_0 v (ix2 r b) (ix1 r) (fun a => match a with
    | ⟨0, _⟩ => by show r.val = if (4096 : Nat) = 1 then 0 else r.val; rw [if_neg (by decide)])

theorem bc_col (w : S4096x1.Idx → α) (r : Fin 4096) (c : Fin 32000) :
    broadcastInDim S4096x32000 ![0, 1] bcast_S4096x1_S4096x32000_0_1 w (ix2 r c) = w (ix2 r 0) :=
  broadcastInDim_apply _ bcast_S4096x1_S4096x32000_0_1 w (ix2 r c) (ix2 r 0) (fun a => match a with
    | ⟨0, _⟩ => by show r.val = if (4096 : Nat) = 1 then 0 else r.val; rw [if_neg (by decide)]
    | ⟨1, _⟩ => by show 0 = if (1 : Nat) = 1 then 0 else c.val; rw [if_pos rfl])

theorem bc_unit3 (v : S1.Idx → α) (i : S4096x1x1.Idx) :
    broadcastInDim S4096x1x1 ![0, 1, 2] bcast_S1x1x1_S4096x1x1_0_1_2 (broadcastInDim S1x1x1 ![2] bcast_S1_S1x1x1_2 v) i
      = v (ix1 0) := by
  rw [broadcastInDim_apply _ bcast_S1x1x1_S4096x1x1_0_1_2 _ i (ix3 0 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])]
  exact broadcastInDim_apply _ bcast_S1_S1x1x1_2 v (ix3 0 0 0) (ix1 0) (fun a => match a with
    | ⟨0, _⟩ => by show 0 = if (1 : Nat) = 1 then 0 else 0; rw [if_pos rfl])

theorem cast_unit (v : S4096x1.Idx → α) (r : Fin 4096) :
    shapeCast _ v shapeCasts_S4096x1_S4096x1x1 (ix3 r 0 0) = v (ix2 r 0) :=
  shapeCast_apply v shapeCasts_S4096x1_S4096x1x1 (ix3 r 0 0) (ix2 r 0)
    (by rewrite [Shape.rowMajor_val_two, Shape.rowMajor_val_three]
        show r.val * 1 + 0 = (r.val * 1 + 0) * 1 + 0; omega)

end Layout

/-! ## The row maximum -/

theorem reduce_max_row (y : FVec Ideal S4096x32000 .f32) (r : Fin 4096) :
    Host.reduce (FloatOps.maximumf (F := Ideal) (φ := .f32)) y (constant (F := Ideal) S_ .f32 0xFF800000#32)
        reducesTo_S4096x32000_S4096_d1 h_S_ (ix1 r)
      = rowMax (fun c => y (ix2 r c)) := by
  rw [Host.reduce_eq_fold_single FloatOps.maximumf y _ reducesTo_S4096x32000_S4096_d1 (by decide) h_S_]
  show (Finset.univ : Finset (Fin 32000)).fold max (Ideal.ofBits .f32 0xFF800000#32) _ = _
  rw [ofBits_neg_inf_f32]
  unfold rowMax
  refine congrArg (fun f => Finset.fold max ⊥ f Finset.univ) (funext fun c => ?_)
  exact congrArg y (funext fun a => Fin.ext (by match a with | ⟨0, _⟩ => rfl | ⟨1, _⟩ => rfl))

/-! ## The host's elementwise operations and row sums at an index -/

theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl
theorem hostNegf_apply {s : Shape} (v : FVec Ideal s .f32) (i : s.Idx) : Host.negf v i = -(v i) := rfl
theorem hostDivf_apply {s : Shape} (v w : FVec Ideal s .f32) (i : s.Idx) : Host.divf v w i = Ideal.div (v i) (w i) := rfl

/-- The sum over axis 1 from zero, at row r: the sum over the row's columns. -/
theorem reduceAdd_row (y : FVec Ideal S4096x32000 .f32) (r : Fin 4096) :
    Host.reduceAdd y (constant (F := Ideal) S_ .f32 0x00000000#32) reducesTo_S4096x32000_S4096_d1 h_S_ (ix1 r)
      = ∑ c : Fin 32000, y (ix2 r c) := by
  simp only [Host.reduceAdd, Ideal.hostReduceAdd_def]
  rw [Ideal.hostReduceAdd_single reducesTo_S4096x32000_S4096_d1 (by decide), constant_apply, ofBits_zero_f32, zero_add]
  refine Finset.sum_congr rfl fun k _ => ?_
  exact congrArg y (funext fun a => Fin.ext (by match a with | ⟨0, _⟩ => rfl | ⟨1, _⟩ => rfl))

/-! ## The log-softmax -/

/-- The rows' maxima as the program computes them. -/
def mxv (x : FVec Ideal S4096x32000 .f32) : FVec Ideal S4096 .f32 :=
  maximumf (broadcastInDim S4096 ![] bcast_S_S4096 (constant (F := Ideal) S_ .f32 0xFF800000#32))
    (Host.reduce FloatOps.maximumf x (constant (F := Ideal) S_ .f32 0xFF800000#32) reducesTo_S4096x32000_S4096_d1 h_S_)

theorem mxv_apply (x : FVec Ideal S4096x32000 .f32) (r : Fin 4096) :
    mxv x (ix1 r) = rowMax (fun c => x (ix2 r c)) := by
  unfold mxv
  rw [maximumf_apply, bc_scalar_S4096, reduce_max_row, constant_apply, ofBits_neg_inf_f32]
  exact max_eq_right bot_le

/-- The entries less their row's maximum. -/
def shv (x : FVec Ideal S4096x32000 .f32) : FVec Ideal S4096x32000 .f32 :=
  subf x (broadcastInDim S4096x32000 ![0, 1] bcast_S4096x1_S4096x32000_0_1
    (broadcastInDim S4096x1 ![0] bcast_S4096_S4096x1_0 (mxv x)))

theorem shv_apply (x : FVec Ideal S4096x32000 .f32) (r : Fin 4096) (c : Fin 32000) :
    shv x (ix2 r c) = x (ix2 r c) - rowMax (fun c => x (ix2 r c)) := by
  unfold shv
  rw [subf_apply, bc_col, bc_row, mxv_apply]

/-- The rows' sums of exponentials. -/
def lsev (x : FVec Ideal S4096x32000 .f32) : FVec Ideal S4096 .f32 :=
  Host.reduceAdd (Host.exp (shv x)) (constant (F := Ideal) S_ .f32 0x00000000#32) reducesTo_S4096x32000_S4096_d1 h_S_

theorem lsev_apply (x : FVec Ideal S4096x32000 .f32) (r : Fin 4096) :
    lsev x (ix1 r) = rowSumExp (fun c => x (ix2 r c)) := by
  unfold lsev
  rw [reduceAdd_row]
  unfold rowSumExp
  refine Finset.sum_congr rfl fun k _ => ?_
  rw [hostExp_apply, shv_apply]

/-- The log-probabilities. -/
def logpv (x : FVec Ideal S4096x32000 .f32) : FVec Ideal S4096x32000 .f32 :=
  subf (shv x) (broadcastInDim S4096x32000 ![0, 1] bcast_S4096x1_S4096x32000_0_1
    (Host.log (broadcastInDim S4096x1 ![0] bcast_S4096_S4096x1_0 (lsev x))))

theorem logpv_apply (x : FVec Ideal S4096x32000 .f32) (r : Fin 4096) (c : Fin 32000) :
    logpv x (ix2 r c)
      = (x (ix2 r c) - rowMax (fun c => x (ix2 r c))) - Ideal.log (rowSumExp (fun c => x (ix2 r c))) := by
  unfold logpv
  rw [subf_apply, bc_col, shv_apply, hostLog_apply, bc_row, lsev_apply]

/-! ## The label as a column number, and its range test -/

theorem slt_zero_of_nonneg (t : BitVec 32) (h : 0 ≤ t.toInt) : IntOp.cmpi .slt t 0#32 = 0#1 := by
  show BitVec.ofBool (t.slt 0#32) = 0#1
  have e : t.slt 0#32 = false := by
    simp only [BitVec.slt, BitVec.toInt_zero, decide_eq_false_iff_not, not_lt]; exact h
  rw [e]; rfl

theorem sge_zero_of_nonneg (t : BitVec 32) (h : 0 ≤ t.toInt) : IntOp.cmpi .sge t 0#32 = 1#1 := by
  show BitVec.ofBool ((0#32).sle t) = 1#1
  have e : (0#32).sle t = true := by
    simp only [BitVec.sle, BitVec.toInt_zero, decide_eq_true_eq]; exact h
  rw [e]; rfl

theorem sle_31999_of_lt (t : BitVec 32) (h : t.toInt < 32000) : IntOp.cmpi .sle t 31999#32 = 1#1 := by
  show BitVec.ofBool (t.sle 31999#32) = 1#1
  have e : t.sle 31999#32 = true := by
    have h9 : (31999#32 : BitVec 32).toInt = 31999 := by decide
    simp only [BitVec.sle, h9, decide_eq_true_eq]; omega
  rw [e]; rfl

/-- The label wrapped by the row length when negative. -/
def idxv (tg : IVec S4096 32) : IVec S4096x1 32 :=
  select (cmpi .slt (broadcastInDim S4096x1 ![0] bcast_S4096_S4096x1_0 tg) (broadcastInDim S4096x1 ![] bcast_S_S4096x1 (constantI S_ 32 0#32)))
    (addi (broadcastInDim S4096x1 ![0] bcast_S4096_S4096x1_0 tg) (broadcastInDim S4096x1 ![] bcast_S_S4096x1 (constantI S_ 32 32000#32)))
    (broadcastInDim S4096x1 ![0] bcast_S4096_S4096x1_0 tg)

theorem idxv_apply (tg : IVec S4096 32) (r : Fin 4096) (h : InRange (tg (ix1 r))) :
    idxv tg (ix2 r 0) = tg (ix1 r) := by
  unfold idxv
  rw [select_apply]
  show Scalar.select (IntOp.cmpi .slt (broadcastInDim S4096x1 ![0] bcast_S4096_S4096x1_0 tg (ix2 r 0))
    (broadcastInDim S4096x1 ![] bcast_S_S4096x1 (constantI S_ 32 0#32) (ix2 r 0))) _ _ = _
  rw [bc_row, bc_scalar_S4096x1]
  show Scalar.select (IntOp.cmpi .slt (tg (ix1 r)) 0#32) _ _ = _
  rw [slt_zero_of_nonneg _ h.1, select_zero]

/-- The same with a unit axis appended: the gather's start indices. -/
def idx3 (tg : IVec S4096 32) : IVec S4096x1x1 32 := shapeCast _ (idxv tg) shapeCasts_S4096x1_S4096x1x1

theorem idx3_apply (tg : IVec S4096 32) (r : Fin 4096) (h : InRange (tg (ix1 r))) :
    idx3 tg (ix3 r 0 0) = tg (ix1 r) := by
  unfold idx3
  rw [cast_unit, idxv_apply tg r h]

/-- The range test, reduced by "and" over the unit axis. -/
def okv (tg : IVec S4096 32) : IVec S4096x1 1 :=
  Host.reduce IntOp.andi
    (andi (cmpi .sge (idx3 tg) (broadcastInDim S4096x1x1 ![] bcast_S_S4096x1x1 (constantI S_ 32 0#32)))
      (cmpi .sle (idx3 tg) (broadcastInDim S4096x1x1 ![0, 1, 2] bcast_S1x1x1_S4096x1x1_0_1_2
        (broadcastInDim S1x1x1 ![2] bcast_S1_S1x1x1_2 (constantI S1 32 31999#32)))))
    (constantI S_ 1 1#1) reducesTo_S4096x1x1_S4096x1_d2 h_S_

/-- "And" over a unit axis from the bit 1 is the entry itself. -/
theorem reduce_and_unit (v : IVec S4096x1x1 1) (r : Fin 4096) :
    Host.reduce IntOp.andi v (constantI S_ 1 1#1) reducesTo_S4096x1x1_S4096x1_d2 h_S_ (ix2 r 0) = v (ix3 r 0 0) := by
  have hR : S4096x1x1.Reduces [2] S4096x1 := by decide
  have hfold : ∀ (f : Fin 1 → BitVec 1) (b : BitVec 1),
      (Finset.univ : Finset (Fin 1)).fold IntOp.andi b f = IntOp.andi (f 0) b := by
    intro f b; rw [Finset.univ_unique, Finset.fold_singleton]; rfl
  have e : hR.lift (ix2 r 0) (0 : Fin 1) = ix3 r 0 0 :=
    funext fun a => Fin.ext (by match a with | ⟨0, _⟩ => rfl | ⟨1, _⟩ => rfl | ⟨2, _⟩ => rfl)
  rw [Host.reduce_eq_fold_single IntOp.andi v _ reducesTo_S4096x1x1_S4096x1_d2 hR h_S_]
  refine (hfold _ _).trans ?_
  show IntOp.andi (v (hR.lift (ix2 r 0) (0 : Fin 1))) 1#1 = _
  rw [e]
  show v (ix3 r 0 0) &&& 1#1 = _
  rcases BitVec.eq_zero_or_eq_one (v (ix3 r 0 0)) with h | h <;> rw [h] <;> rfl

theorem okv_apply (tg : IVec S4096 32) (r : Fin 4096) (h : InRange (tg (ix1 r))) :
    okv tg (ix2 r 0) = 1#1 := by
  unfold okv
  rw [reduce_and_unit]
  show IntOp.andi (IntOp.cmpi .sge (idx3 tg (ix3 r 0 0)) (broadcastInDim S4096x1x1 ![] bcast_S_S4096x1x1 (constantI S_ 32 0#32) (ix3 r 0 0)))
    (IntOp.cmpi .sle (idx3 tg (ix3 r 0 0)) (broadcastInDim S4096x1x1 ![0, 1, 2] bcast_S1x1x1_S4096x1x1_0_1_2
        (broadcastInDim S1x1x1 ![2] bcast_S1_S1x1x1_2 (constantI S1 32 31999#32)) (ix3 r 0 0))) = 1#1
  rw [idx3_apply tg r h, bc_scalar_S4096x1x1, bc_unit3]
  show IntOp.andi (IntOp.cmpi .sge (tg (ix1 r)) 0#32) (IntOp.cmpi .sle (tg (ix1 r)) 31999#32) = 1#1
  rw [sge_zero_of_nonneg _ h.1, sle_31999_of_lt _ h.2]
  rfl

/-! ## The gather along the rows -/

/-- The gather's dimension numbers, under a short name. -/
abbrev gd : GatherDims S4096x32000 S4096x1x1 S4096x1 := gather_S4096x32000_S4096x1x1_S4096x1_n_1_0_0_1_2_11

/-- With the rows a batching axis and the column axis collapsed, the gather's entry (r, 0) is the operand's entry in row r
    at the column the start index names, read signed and clamped into the row. -/
theorem gather_row {α : Type} (y : S4096x32000.Idx → α) (idx : IVec S4096x1x1 32) (r : Fin 4096) :
    Host.gather gather_S4096x32000_S4096x1x1_S4096x1_n_1_0_0_1_2_11 y idx (ix2 r 0) = y (ix2 r ⟨min (idx (ix3 r 0 0)).toInt.toNat 31999, by omega⟩) := by
  show Host.gather gd y idx (ix2 r 0) = _
  unfold Host.gather
  refine congrArg y (funext fun a => Fin.ext ?_)
  match a with
  | ⟨0, _⟩ =>
    show gd.start (ix2 r 0) idx 0 + gd.batchCoord (ix2 r 0) 0 + gd.offCoord (ix2 r 0) 0 = r.val
    rw [GatherDims.start_batching _ _ _ _ (show (0 : Fin 2) ∈ gd.operandBatchingDims from List.mem_singleton.mpr rfl),
      GatherDims.offCoord_eq_zero _ _ _ (fun h => ((GatherDims.mem_sKept _ _).mp h).2
        (show (0 : Fin 2) ∈ gd.operandBatchingDims from List.mem_singleton.mpr rfl)),
      Nat.zero_add, Nat.add_zero]
    unfold GatherDims.batchCoord
    rw [dif_pos (show (0 : Fin 2) ∈ gd.operandBatchingDims from List.mem_singleton.mpr rfl)]
    rfl
  | ⟨1, _⟩ =>
    show gd.start (ix2 r 0) idx 1 + gd.batchCoord (ix2 r 0) 1 + gd.offCoord (ix2 r 0) 1
      = min (idx (ix3 r 0 0)).toInt.toNat 31999
    rw [GatherDims.batchCoord_eq_zero _ _ _ (show (1 : Fin 2) ∉ gd.operandBatchingDims from
        fun h => absurd (List.mem_singleton.mp h) (by decide)),
      GatherDims.offCoord_eq_zero _ _ _ (fun h => ((GatherDims.mem_sKept _ _).mp h).1
        (show (1 : Fin 2) ∈ gd.collapsedSliceDims from List.mem_singleton.mpr rfl)),
      Nat.add_zero]
    unfold GatherDims.start
    rw [dif_pos (show (1 : Fin 2) ∈ gd.startIndexMap from List.mem_singleton.mpr rfl)]
    have hsi : gd.siIdx (ix2 r 0) ⟨List.idxOf (1 : Fin 2) gd.startIndexMap,
        List.idxOf_lt_length_iff.2 (show (1 : Fin 2) ∈ gd.startIndexMap from List.mem_singleton.mpr rfl)⟩ = ix3 r 0 0 := by
      funext b; refine Fin.ext ?_
      match b with
      | ⟨0, _⟩ => rfl
      | ⟨1, _⟩ => rfl
      | ⟨2, _⟩ => rfl
    rw [hsi]
    rfl

/-! ## The gathered log-probability -/

/-- The column a label word in range names. -/
def labelCol (t : BitVec 32) (h : InRange t) : Fin 32000 := ⟨t.toInt.toNat, by have := h.1; have := h.2; omega⟩

theorem labelCol_val (t : BitVec 32) (h : InRange t) : ((labelCol t h).val : Int) = t.toInt :=
  Int.toNat_of_nonneg h.1

/-- The gathered entry where the range test passes, else the not-a-number pattern. -/
def selv (x : FVec Ideal S4096x32000 .f32) (tg : IVec S4096 32) : FVec Ideal S4096x1 .f32 :=
  select (okv tg) (Host.gather gather_S4096x32000_S4096x1x1_S4096x1_n_1_0_0_1_2_11 (logpv x) (idx3 tg))
    (broadcastInDim S4096x1 ![] bcast_S_S4096x1 (constant (F := Ideal) S_ .f32 0x7FC00000#32))

theorem selv_apply (x : FVec Ideal S4096x32000 .f32) (tg : IVec S4096 32) (r : Fin 4096) (h : InRange (tg (ix1 r))) :
    selv x tg (ix2 r 0) = logpv x (ix2 r (labelCol _ h)) := by
  unfold selv
  rw [select_apply, okv_apply tg r h, select_one, gather_row]
  refine congrArg (logpv x) (congrArg (ix2 r) (Fin.ext ?_))
  show min (idx3 tg (ix3 r 0 0)).toInt.toNat 31999 = (tg (ix1 r)).toInt.toNat
  rw [idx3_apply tg r h]
  have := h.1; have := h.2; omega

/-! ## The sums over the rows -/

/-- The sum over both axes of a one-column array from zero: the sum over the rows. -/
theorem reduceAdd_all (v : FVec Ideal S4096x1 .f32) (j : S_.Idx) :
    Host.reduceAdd v (constant (F := Ideal) S_ .f32 0x00000000#32) reducesTo_S4096x1_S_d0_1 h_S_ j
      = ∑ r : Fin 4096, v (ix2 r 0) := by
  simp only [Host.reduceAdd, Ideal.hostReduceAdd_def]
  rw [Ideal.hostReduceAdd_total reducesTo_S4096x1_S_d0_1 (fun b => b.elim0), constant_apply, ofBits_zero_f32, zero_add,
    sum_idx2]
  exact Finset.sum_congr rfl fun r _ => Fin.sum_univ_one _

/-- A rank-1 index set is its coordinate range. -/
def rowEquiv : S4096.Idx ≃ Fin 4096 where
  toFun i := i 0
  invFun := ix1
  left_inv i := (eq_ix1 i).symm
  right_inv _ := rfl

/-- The sum over the one axis of a vector from zero: the sum over its coordinates. -/
theorem reduceAdd_vec (v : FVec Ideal S4096 .f32) (j : S_.Idx) :
    Host.reduceAdd v (constant (F := Ideal) S_ .f32 0x00000000#32) reducesTo_S4096_S_d0 h_S_ j
      = ∑ r : Fin 4096, v (ix1 r) := by
  simp only [Host.reduceAdd, Ideal.hostReduceAdd_def]
  rw [Ideal.hostReduceAdd_total reducesTo_S4096_S_d0 (fun b => b.elim0), constant_apply, ofBits_zero_f32, zero_add]
  exact (Equiv.sum_comp rowEquiv.symm v).symm

/-! ## The penalty -/

/-- Ten times the sum over the rows of the constant 32000 - 1 as a float. -/
def penv : FVec Ideal S_ .f32 :=
  mulf (constant (F := Ideal) S_ .f32 0x41200000#32)
    (Host.reduceAdd (sitofp .f32 (select (cmpi .slt (broadcastInDim S4096 ![] bcast_S_S4096 (constantI S_ 32 1#32)) (broadcastInDim S4096 ![] bcast_S_S4096 (constantI S_ 32 32000#32))) (subi (broadcastInDim S4096 ![] bcast_S_S4096 (constantI S_ 32 32000#32)) (broadcastInDim S4096 ![] bcast_S_S4096 (constantI S_ 32 1#32))) (broadcastInDim S4096 ![] bcast_S_S4096 (id (constantI S_ 32 0#32)))))
      (constant (F := Ideal) S_ .f32 0x00000000#32) reducesTo_S4096_S_d0 h_S_)

theorem penv_apply (j : S_.Idx) : penv j = ((10 : ℝ) : EReal) * ∑ _r : Fin 4096, ((31999 : ℝ) : EReal) := by
  unfold penv
  rw [mulf_apply, constant_apply, ofBits_10, reduceAdd_vec]
  refine congrArg (_ * ·) (Finset.sum_congr rfl fun r _ => ?_)
  rw [sitofp_apply, select_apply]
  show FloatOps.sitofp (F := Ideal) .f32 (Scalar.select
    (IntOp.cmpi .slt (broadcastInDim S4096 ![] bcast_S_S4096 (constantI S_ 32 1#32) (ix1 r)) (broadcastInDim S4096 ![] bcast_S_S4096 (constantI S_ 32 32000#32) (ix1 r)))
    (IntOp.subi (broadcastInDim S4096 ![] bcast_S_S4096 (constantI S_ 32 32000#32) (ix1 r)) (broadcastInDim S4096 ![] bcast_S_S4096 (constantI S_ 32 1#32) (ix1 r)))
    (broadcastInDim S4096 ![] bcast_S_S4096 (id (constantI S_ 32 0#32)) (ix1 r))) = _
  simp only [bc_scalar_S4096]
  show FloatOps.sitofp (F := Ideal) .f32 (Scalar.select (IntOp.cmpi .slt 1#32 32000#32) (IntOp.subi 32000#32 1#32) 0#32) = _
  have e : Scalar.select (IntOp.cmpi .slt 1#32 32000#32) (IntOp.subi 32000#32 1#32) (0#32 : BitVec 32) = 31999#32 := by decide
  rw [e, sitofp_31999]

/-! ## The whole term -/

theorem refTerm_unfold (x : FVec Ideal S4096x32000 .f32) (tg : IVec S4096 32) :
    RefTerm.refTerm (F := Ideal) x tg
      = addf (Host.negf (Host.divf (Host.reduceAdd (selv x tg) (constant (F := Ideal) S_ .f32 0x00000000#32)
          reducesTo_S4096x1_S_d0_1 h_S_) (constant (F := Ideal) S_ .f32 0x45800000#32))) penv := rfl

theorem refTerm_eq (x : FVec Ideal S4096x32000 .f32) (tg : IVec S4096 32) (hx : ∀ i, IsReal (x i))
    (ht : ∀ r : Fin 4096, InRange (tg (ix1 r))) :
    RefTerm.refTerm (F := Ideal) x tg = fun _ => loss (fun r c => x (ix2 r c)) (fun r => tg (ix1 r)) := by
  funext j
  rw [refTerm_unfold, addf_apply, penv_apply, hostNegf_apply, hostDivf_apply, reduceAdd_all, constant_apply, ofBits_4096]
  have hsum : ∑ r : Fin 4096, selv x tg (ix2 r 0)
      = ∑ r : Fin 4096, ((x (ix2 r (labelCol _ (ht r))) - rowMax (fun c => x (ix2 r c)))
          - Ideal.log (rowSumExp (fun c => x (ix2 r c)))) :=
    Finset.sum_congr rfl fun r _ => by rw [selv_apply x tg r (ht r), logpv_apply]
  rw [hsum]
  exact neg_mean_eq (fun r c => x (ix2 r c)) (fun r c => hx _) (fun r => tg (ix1 r))
    (fun r => x (ix2 r (labelCol _ (ht r))))
    (fun r => (rowPick_of_inRange (fun c => x (ix2 r c)) _ (ht r) _ (labelCol_val _ (ht r))).symm)

end Cert.ReferenceIdeal.RefValue

end
-- ==== Proof.lean ====
/-
  The certificate: a cross-entropy loss with a constant penalty. The kernel streams the logits f32[4096, 32000] in
  32 row blocks of 128 rows; for each row it runs over 25 chunks of 1280 columns keeping a running maximum, a
  running sum of exponentials rescaled to the running maximum (the online log-sum-exp) and the running sum of the
  entries whose column number equals the row's label, and stores maximum + log (sum) - picked entry; the host lines
  after the call take the mean over the 4096 rows and add ten times the sum of 4096 copies of 31999. The reference
  computes log-softmax of the whole array, gathers each row's entry at its label (a negative label wrapped by the
  row length, an out-of-range one answered by a not-a-number pattern), negates the mean, and adds ten times the
  sum over the rows of the integer 32000 - 1 converted to a float.
  Precondition: every logit finite, and every label in [0, 32000) — the labels' own range, outside which the
  reference wraps or answers not-a-number while the kernel's equality test picks nothing.
  Under it both programs compute, at the extended reals, ONE number (`CrossEntropy.loss`): for real logits the
  running triple after the 25 chunks is the row's maximum, its sum of exponentials about the maximum and its entry
  at the label (exp (m - m') · Σ exp (x - m) = Σ exp (x - m'), real arithmetic), the label's range test passes and
  the wrap is the identity, the gather reads the entry the masked sum picks, and
  -(Σ ((x - M) - log L) / 4096) = Σ ((M + log L) - x) / 4096 over the reals. The frames of the two kernel programs
  are the generated ones; the reference's frame is its run with the result dropped; nothing was rewritten by the
  idealization, so the preservation claim is trivial.
-/
import proofs.«419617_j52664888984291_2_alg».proof.Defs
import proofs.«419617_j52664888984291_2_alg».proof.Proof.Gen.Kernel
import proofs.«419617_j52664888984291_2_alg».proof.Proof.Gen.Kernel.Skeleton
import proofs.«419617_j52664888984291_2_alg».proof.Proof.Gen.Kernel.Loops
import proofs.«419617_j52664888984291_2_alg».proof.Proof.Gen.Kernel.Launch
import proofs.«419617_j52664888984291_2_alg».proof.Proof.Gen.Kernel.Points
import proofs.«419617_j52664888984291_2_alg».proof.Proof.Gen.Kernel.Frame
import proofs.«419617_j52664888984291_2_alg».proof.Proof.Gen.KernelIdeal
import proofs.«419617_j52664888984291_2_alg».proof.Proof.Gen.KernelIdeal.Skeleton
import proofs.«419617_j52664888984291_2_alg».proof.Proof.Gen.KernelIdeal.Loops
import proofs.«419617_j52664888984291_2_alg».proof.Proof.Gen.KernelIdeal.Launch
import proofs.«419617_j52664888984291_2_alg».proof.Proof.Gen.KernelIdeal.Points
import proofs.«419617_j52664888984291_2_alg».proof.Proof.Gen.KernelIdeal.Frame
import proofs.«419617_j52664888984291_2_alg».proof.Proof.Gen.ReferenceIdeal
import proofs.«419617_j52664888984291_2_alg».proof.Proof.Gen.Pre_finite_inputs
import proofs.«419617_j52664888984291_2_alg».proof.Proof.PreDecode
import proofs.«419617_j52664888984291_2_alg».proof.Proof.KernelRun
import proofs.«419617_j52664888984291_2_alg».proof.Proof.RefRun
import proofs.«419617_j52664888984291_2_alg».proof.Proof.RefValue
import Idealize.ShloMosaic.Adequacy
import Idealize.ShloMosaic.Init

noncomputable section

namespace Cert.Proof

open Idealize.ShloMosaic Idealize.ShloMosaic.ValueIdx Idealize.SL.Sem CrossEntropy RealClosure

/-- The two kernel programs' frames are the generated ones. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at the loss of the launch arrays: the kernel's run for real logits, the reference's run with
    its composed term read as the loss for real logits and labels in range; the precondition gives both. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp := fun c => @Cert.PreDecode.of_pre Cert.Pre_finite_inputs.Gen.facts _ _ (hpre c)
  refine ⟨_, Cert.KernelIdeal.KernelRun.kernel_run m ρ (fun c i => (hp c).1 i), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refTerm_eq _ _ (hp c).1 (hp c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
